-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256 : Shape := ⟨1, ![256]⟩
abbrev S512x256 : Shape := ⟨2, ![512, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S131072x256 .f32) (main_arg1 : FVec F S256 .f32) (main_arg2 : FVec F S256 .f32) (main_arg3 : FVec F S512x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S131072x256 : Shape := ⟨2, ![131072, 256]⟩
abbrev S256 : Shape := ⟨1, ![256]⟩
abbrev S512x256 : Shape := ⟨2, ![512, 256]⟩
abbrev S1x256 : Shape := ⟨2, ![1, 256]⟩
abbrev S_ : Shape := ⟨0, ![]⟩
abbrev S512 : Shape := ⟨1, ![512]⟩
abbrev S512x1 : Shape := ⟨2, ![512, 1]⟩
abbrev S1x512 : Shape := ⟨2, ![1, 512]⟩
abbrev S131072x512 : Shape := ⟨2, ![131072, 512]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩

abbrev nBuf : Space → Nat
  | .hbm => 14
  | .vmem => 12
  | .smem => 0
  | _ => 0

abbrev bufTy : (tb : Table) → Fin (tcTables nBuf tb) → BufTy
  | .hbm, ⟨0, _⟩ => ⟨S131072x256, .f32⟩
  | .hbm, ⟨1, _⟩ => ⟨S256, .f32⟩
  | .hbm, ⟨2, _⟩ => ⟨S256, .f32⟩
  | .hbm, ⟨3, _⟩ => ⟨S512x256, .f32⟩
  | .hbm, ⟨4, _⟩ => ⟨S1x256, .f32⟩
  | .hbm, ⟨5, _⟩ => ⟨S1x256, .f32⟩
  | .hbm, ⟨6, _⟩ => ⟨S512x256, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S1x512, .f32⟩
  | .hbm, ⟨11, _⟩ => ⟨S131072x512, .f32⟩
  | .hbm, ⟨12, _⟩ => ⟨S131072x512, .f32⟩
  | .hbm, ⟨13, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x256, .f32⟩
  | .local _ .vmem, ⟨4, _⟩ => ⟨S512x256, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x256, .f32⟩
  | .local _ .vmem, ⟨11, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  reducesTo_S512x256_S512_d1 : S512x256.ReducesTo [1] S512
  h_S_ : 0 < S_.numel
  bcast_S512_S512x1_0 : S512.BroadcastsInDim S512x1 (![0] : Fin 1 → Fin S512x1.rank)
  shapeCasts_S512x1_S1x512 : S512x1.ShapeCasts S1x512
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  broadcasts_S2048x1_S2048x512 : S2048x1.Broadcasts S2048x512
  broadcasts_S1x512_S2048x512 : S1x512.Broadcasts S2048x512
  reduces_S2048x512_S2048 : S2048x512.Reduces [1] S2048
  inb_S2048x512_S2048x512_0_0 : ∀ a, (![0, 0] : Fin 2 → Nat) a + S2048x512.size a ≤ S2048x512.size a
  h_S2048x512 : 0 < S2048x512.numel
  dot_S2048x256_S512x256_S2048x512_1_1_0_0_n_n_wf : DotDims.WF S2048x256 S512x256 S2048x512 [1] [1] [0] [0] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S131072x512.size a
  hwx0_5 : ∀ i : grid0.Coords, EltTy.bits .f32 = 32 ∨ (Rect.block (s := S131072x512) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S131072x512.size a
  hwx0_6 : ∀ i : grid0.Coords, EltTy.bits .f32 = 32 ∨ (Rect.block (s := S131072x512) S2048x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S131072x256.size a
  hwx0_7 : ∀ i : grid0.Coords, EltTy.bits .f32 = 32 ∨ (Rect.block (s := S131072x256) S2048x256.size (cc0_transform_7 i) (hinb0_7 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S2048x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x256 : Shape := ⟨2, ![131072, 256]⟩
abbrev S256 : Shape := ⟨1, ![256]⟩
abbrev S512x256 : Shape := ⟨2, ![512, 256]⟩
abbrev S_ : Shape := ⟨0, ![]⟩
abbrev S131072 : Shape := ⟨1, ![131072]⟩
abbrev S131072x1 : Shape := ⟨2, ![131072, 1]⟩
abbrev S1x256 : Shape := ⟨2, ![1, 256]⟩
abbrev S512 : Shape := ⟨1, ![512]⟩
abbrev S1x512 : Shape := ⟨2, ![1, 512]⟩
abbrev S131072x512 : Shape := ⟨2, ![131072, 512]⟩
abbrev S256x512 : Shape := ⟨2, ![256, 512]⟩

abbrev nBuf : Space → Nat
  | .hbm => 77
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256, .f32⟩
  | .hbm, ⟨2, _⟩ => ⟨S256, .f32⟩
  | .hbm, ⟨3, _⟩ => ⟨S512x256, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S_, .f32⟩
  | .hbm, ⟨8, _⟩ => ⟨S131072x1, .f32⟩
  | .hbm, ⟨9, _⟩ => ⟨S131072x1, .f32⟩
  | .hbm, ⟨10, _⟩ => ⟨S131072x256, .f32⟩
  | .hbm, ⟨11, _⟩ => ⟨S131072x256, .f32⟩
  | .hbm, ⟨12, _⟩ => ⟨S131072x256, .f32⟩
  | .hbm, ⟨13, _⟩ => ⟨S_, .f32⟩
  | .hbm, ⟨14, _⟩ => ⟨S131072, .f32⟩
  | .hbm, ⟨15, _⟩ => ⟨S131072x1, .f32⟩
  | .hbm, ⟨16, _⟩ => ⟨S_, .f32⟩
  | .hbm, ⟨17, _⟩ => ⟨S131072x1, .f32⟩
  | .hbm, ⟨18, _⟩ => ⟨S131072x1, .f32⟩
  | .hbm, ⟨19, _⟩ => ⟨S131072x1, .f32⟩
  | .hbm, ⟨20, _⟩ => ⟨S131072x256, .f32⟩
  | .hbm, ⟨21, _⟩ => ⟨S131072x256, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S131072x256, .f32⟩
  | .hbm, ⟨26, _⟩ => ⟨S131072x256, .f32⟩
  | .hbm, ⟨27, _⟩ => ⟨S1x256, .f32⟩
  | .hbm, ⟨28, _⟩ => ⟨S131072x256, .f32⟩
  | .hbm, ⟨29, _⟩ => ⟨S131072x256, .f32⟩
  | .hbm, ⟨30, _⟩ => ⟨S1x256, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S_, .f32⟩
  | .hbm, ⟨35, _⟩ => ⟨S131072, .f32⟩
  | .hbm, ⟨36, _⟩ => ⟨S131072x1, .f32⟩
  | .hbm, ⟨37, _⟩ => ⟨S512x256, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S131072x512, .f32⟩
  | .hbm, ⟨42, _⟩ => ⟨S131072x512, .f32⟩
  | .hbm, ⟨43, _⟩ => ⟨S131072x512, .f32⟩
  | .hbm, ⟨44, _⟩ => ⟨S256x512, .f32⟩
  | .hbm, ⟨45, _⟩ => ⟨S131072x512, .f32⟩
  | .hbm, ⟨46, _⟩ => ⟨S_, .f32⟩
  | .hbm, ⟨47, _⟩ => ⟨S131072x512, .f32⟩
  | .hbm, ⟨48, _⟩ => ⟨S131072x512, .f32⟩
  | .hbm, ⟨49, _⟩ => ⟨S131072x512, .f32⟩
  | .hbm, ⟨50, _⟩ => ⟨S131072x512, .f32⟩
  | .hbm, ⟨51, _⟩ => ⟨S_, .f32⟩
  | .hbm, ⟨52, _⟩ => ⟨S131072, .f32⟩
  | .hbm, ⟨53, _⟩ => ⟨S131072x1, .f32⟩
  | .hbm, ⟨54, _⟩ => ⟨S_, .f32⟩
  | .hbm, ⟨55, _⟩ => ⟨S131072x1, .f32⟩
  | .hbm, ⟨56, _⟩ => ⟨S131072x1, .f32⟩
  | .hbm, ⟨57, _⟩ => ⟨S131072x512, .f32⟩
  | .hbm, ⟨58, _⟩ => ⟨S131072x512, .f32⟩
  | .hbm, ⟨59, _⟩ => ⟨S_, .f32⟩
  | .hbm, ⟨60, _⟩ => ⟨S131072x512, .f32⟩
  | .hbm, ⟨61, _⟩ => ⟨S131072x512, .f32⟩
  | .hbm, ⟨62, _⟩ => ⟨S_, .f32⟩
  | .hbm, ⟨63, _⟩ => ⟨S131072, .f32⟩
  | .hbm, ⟨64, _⟩ => ⟨S_, .f32⟩
  | .hbm, ⟨65, _⟩ => ⟨S131072, .f32⟩
  | .hbm, ⟨66, _⟩ => ⟨S131072, .f32⟩
  | .hbm, ⟨67, _⟩ => ⟨S131072x1, .f32⟩
  | .hbm, ⟨68, _⟩ => ⟨S131072x512, .f32⟩
  | .hbm, ⟨69, _⟩ => ⟨S131072x512, .f32⟩
  | .hbm, ⟨70, _⟩ => ⟨S131072x512, .f32⟩
  | .hbm, ⟨71, _⟩ => ⟨S_, .f32⟩
  | .hbm, ⟨72, _⟩ => ⟨S131072, .f32⟩
  | .hbm, ⟨73, _⟩ => ⟨S131072x1, .f32⟩
  | .hbm, ⟨74, _⟩ => ⟨S131072x512, .f32⟩
  | .hbm, ⟨75, _⟩ => ⟨S131072x512, .f32⟩
  | .hbm, ⟨76, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  reducesTo_S512x256_S512_d1 : S512x256.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x256_S256x512_1_0 : S512x256.Transposes [1, 0] S256x512
  bcast_S_S131072x512 : S_.BroadcastsInDim S131072x512 (![] : Fin 0 → Fin S131072x512.rank)
  reducesTo_S131072x512_S131072_d1 : S131072x512.ReducesTo [1] S131072
  bcast_S_S131072 : S_.BroadcastsInDim S131072 (![] : Fin 0 → Fin S131072.rank)
  dot_S131072x256_S256x512_S131072x512_1_0_0_1_n_n_wf : DotDims.WF S131072x256 S256x512 S131072x512 [1] [0] [0] [1] [] []
  dot_S131072x512_S512x256_S131072x256_1_0_0_1_n_n_wf : DotDims.WF S131072x512 S512x256 S131072x256 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf

class Facts : Prop extends Facts₀ where

variable [Facts]
-- ==== Proof.Spec.lean ====
/-
  The mathematics of the certificate, free of either program: one row's normalisation, its squared distances to
  the cluster centres, the soft assignment of a row of distances, and the reconstruction from the centres — as
  functions of extended reals over the literal index ranges 256 (features) and 512 (centres) —, and the three result
  arrays as functions of the four argument arrays, index by index.

  A row `x` of 256 entries is centred and scaled, `(x - mean x) / (√(var x) + ε) · w + b`; its squared distance to a
  centre `c` is taken by the expanded square `‖a‖² + ‖c‖² - 2·⟨a, c⟩`; the distance is its square root (one program
  clamps the square at zero first: `distClamp`, the other does not: `dist`); a row of 512 distances is divided by its
  mean, scaled by -32, and passed through a softmax (shifted by the row's maximum); the reconstruction of a row is the
  assignment-weighted sum of the centres.
-/
import Idealize.ShloMosaic.PureOps.Ideal
import Idealize.ShloMosaic.Lib.ValueIdx

noncomputable section

namespace Cert.SoftAssign

open Idealize.ShloMosaic Idealize.ShloMosaic.ValueIdx

/-! ## The float literals both programs spell, kept as their words -/

/-- `0.0`. -/
abbrev zeroW : EReal := Ideal.ofBits .f32 0x00000000#32
/-- `256.0`, the number of features. -/
abbrev featW : EReal := Ideal.ofBits .f32 0x43800000#32
/-- The `ε` added to the standard deviation (the f32 nearest `1e-5`). -/
abbrev epsW : EReal := Ideal.ofBits .f32 0x3727C5AC#32
/-- `2.0`. -/
abbrev twoW : EReal := Ideal.ofBits .f32 0x40000000#32
/-- `512.0`, the number of centres. -/
abbrev centW : EReal := Ideal.ofBits .f32 0x44000000#32
/-- `-32.0`, the negated sharpness of the assignment. -/
abbrev alphaW : EReal := Ideal.ofBits .f32 0xC2000000#32
/-- `-∞`, the neutral element of the row maximum. -/
abbrev ninfW : EReal := Ideal.ofBits .f32 0xFF800000#32

/-- An extended real that is a real number: neither infinity. -/
def IsReal (x : EReal) : Prop := ∃ r : ℝ, x = (r : EReal)

/-! ## One row -/

/-- The mean of a row of features. -/
def mean (x : Fin 256 → EReal) : EReal := Ideal.div (∑ j, x j) featW

/-- The (biased) variance of a row. -/
def var (x : Fin 256 → EReal) : EReal := Ideal.div (∑ j, (x j - mean x) * (x j - mean x)) featW

/-- What a centred row is divided by: the standard deviation plus `ε`. -/
def scale (x : Fin 256 → EReal) : EReal := Ideal.sqrt (var x) + epsW

/-- The normalised row: centred, scaled, then the affine map `· w + b` feature by feature. -/
def normRow (x w b : Fin 256 → EReal) (j : Fin 256) : EReal := Ideal.div (x j - mean x) (scale x) * w j + b j

/-- The sum of a row's squares. -/
def sqsum (a : Fin 256 → EReal) : EReal := ∑ j, a j * a j

/-- The inner product of two rows. -/
def inner (a c : Fin 256 → EReal) : EReal := ∑ j, a j * c j

/-- The expanded square of the distance from `a` to `c`, given the centre's own sum of squares `q`. -/
def sqdistOf (a c : Fin 256 → EReal) (q : EReal) : EReal := (sqsum a + q) - twoW * inner a c

/-- The expanded square of the distance from `a` to `c`. -/
def sqdist (a c : Fin 256 → EReal) : EReal := sqdistOf a c (sqsum c)

/-- The distance, the square clamped at zero first. -/
def distClamp (a c : Fin 256 → EReal) (q : EReal) : EReal := Ideal.sqrt (max (sqdistOf a c q) zeroW)

/-- The distance. -/
def dist (a c : Fin 256 → EReal) : EReal := Ideal.sqrt (sqdist a c)

/-- A row of distances over its mean, times `-32`. -/
def logit (d : Fin 512 → EReal) (k : Fin 512) : EReal := alphaW * Ideal.div (d k) (Ideal.div (∑ k', d k') centW)

/-- The maximum of a row of 512, from `-∞` (and against `-∞` once more, as both programs spell it). -/
def rowMax (l : Fin 512 → EReal) : EReal := max ninfW ((Finset.univ : Finset (Fin 512)).fold max ninfW l)

/-- The shifted exponentials of the softmax. -/
def expo (d : Fin 512 → EReal) (k : Fin 512) : EReal := Ideal.exp (logit d k - rowMax (logit d))

/-- The soft assignment of a row of distances. -/
def assign (d : Fin 512 → EReal) (k : Fin 512) : EReal := Ideal.div (expo d k) (∑ k', expo d k')

/-- The reconstruction: the centres weighted by a row of assignments, feature by feature. -/
def recon (p : Fin 512 → EReal) (cc : Fin 512 → Fin 256 → EReal) (j : Fin 256) : EReal := ∑ k, p k * cc k j

/-! ## The arrays -/

/-- Row `r` of a two-axis array. -/
def rowOf {n d : Nat} (X : (⟨2, ![n, d]⟩ : Shape).Idx → EReal) (r : Fin n) : Fin d → EReal := fun j => X (ix2 r j)

/-- A one-axis array as a function of its coordinate. -/
def vecOf {d : Nat} (W : (⟨1, ![d]⟩ : Shape).Idx → EReal) : Fin d → EReal := fun j => W (ix1 j)

/-- The normalised row `r` of the input. -/
def normAt (X : (⟨2, ![131072, 256]⟩ : Shape).Idx → EReal) (W B : (⟨1, ![256]⟩ : Shape).Idx → EReal) (r : Fin 131072) :
    Fin 256 → EReal := normRow (rowOf X r) (vecOf W) (vecOf B)

/-- Row `r` of the distances. -/
def distRow (X : (⟨2, ![131072, 256]⟩ : Shape).Idx → EReal) (W B : (⟨1, ![256]⟩ : Shape).Idx → EReal)
    (C : (⟨2, ![512, 256]⟩ : Shape).Idx → EReal) (r : Fin 131072) : Fin 512 → EReal :=
  fun k => dist (normAt X W B r) (rowOf C k)

/-- Row `r` of the distances, each square clamped at zero. -/
def distClampRow (X : (⟨2, ![131072, 256]⟩ : Shape).Idx → EReal) (W B : (⟨1, ![256]⟩ : Shape).Idx → EReal)
    (C : (⟨2, ![512, 256]⟩ : Shape).Idx → EReal) (r : Fin 131072) : Fin 512 → EReal :=
  fun k => distClamp (normAt X W B r) (rowOf C k) (sqsum (rowOf C k))

/-- The first result, from a family of distance rows: the distances. -/
def distArr (D : Fin 131072 → Fin 512 → EReal) : (⟨2, ![131072, 512]⟩ : Shape).Idx → EReal := fun i => D (i 0) (i 1)

/-- The second result: each row's soft assignment. -/
def assignArr (D : Fin 131072 → Fin 512 → EReal) : (⟨2, ![131072, 512]⟩ : Shape).Idx → EReal :=
  fun i => assign (D (i 0)) (i 1)

/-- The third result: each row's reconstruction from the centres. -/
def reconArr (D : Fin 131072 → Fin 512 → EReal) (C : (⟨2, ![512, 256]⟩ : Shape).Idx → EReal) :
    (⟨2, ![131072, 256]⟩ : Shape).Idx → EReal :=
  fun i => recon (assign (D (i 0))) (fun k => rowOf C k) (i 1)

end Cert.SoftAssign

end
-- ==== Proof.Law.lean ====
import proofs.«117127_j32066225832561_1_alg».proof.Proof.Spec

noncomputable section

namespace Cert.SoftAssign

open Idealize.ShloMosaic Idealize.ShloMosaic.ValueIdx

/-! ## The literals as the reals they denote -/

/-- The pattern of `0.0` denotes `0`. -/
theorem zeroW_eq : zeroW = 0 := by
  simp [zeroW, Ideal.ofBits, Ideal.ieee]

/-- The pattern of `256.0` denotes the real `256`. -/
theorem featW_eq : featW = ((256 : ℝ) : EReal) := by
  simp [featW, Ideal.ofBits, Ideal.ieee, -EReal.coe_mul]; norm_num

/-- The pattern of `2.0` denotes the real `2`. -/
theorem twoW_eq : twoW = ((2 : ℝ) : EReal) := by
  simp [twoW, Ideal.ofBits, Ideal.ieee, -EReal.coe_mul]; norm_num

/-- The `ε` of the scale is a positive real (which one does not matter below). -/
theorem epsW_eq : ∃ e : ℝ, 0 < e ∧ epsW = (e : EReal) := by
  simp [epsW, Ideal.ofBits, Ideal.ieee, -EReal.coe_mul]

/-! ## Real rows -/

/-- The coercion of the reals into the extended reals commutes with a finite sum. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The mean of a real row, as a real. -/
def meanR (x : Fin 256 → ℝ) : ℝ := (∑ j, x j) * (1 / 256)

/-- The variance of a real row, as a real. -/
def varR (x : Fin 256 → ℝ) : ℝ := (∑ j, (x j - meanR x) * (x j - meanR x)) * (1 / 256)

/-- The mean of a row of reals is the real mean. -/
theorem mean_coe (x : Fin 256 → ℝ) : mean (fun j => (x j : EReal)) = (meanR x : EReal) := by
  rw [mean, featW_eq, Ideal.div_coe (by norm_num), ← coe_sum, ← EReal.coe_mul]
  rfl

/-- The variance of a row of reals is the real variance. -/
theorem var_coe (x : Fin 256 → ℝ) : var (fun j => (x j : EReal)) = (varR x : EReal) := by
  rw [var, featW_eq, Ideal.div_coe (by norm_num), mean_coe]
  simp only [← EReal.coe_sub, ← EReal.coe_mul, ← coe_sum]
  rfl

/-- A variance is a mean of squares: it is not negative. -/
theorem varR_nonneg (x : Fin 256 → ℝ) : 0 ≤ varR x :=
  mul_nonneg (Finset.sum_nonneg fun j _ => mul_self_nonneg _) (by norm_num)

/-- The scale of a row of reals is a positive real: a real square root, which is not negative, plus `ε > 0`. -/
theorem scale_coe (x : Fin 256 → ℝ) : ∃ s : ℝ, 0 < s ∧ scale (fun j => (x j : EReal)) = (s : EReal) := by
  obtain ⟨e, he, hE⟩ := epsW_eq
  refine ⟨Real.sqrt (varR x) + e, add_pos_of_nonneg_of_pos (Real.sqrt_nonneg _) he, ?_⟩
  rw [scale, var_coe, Ideal.sqrt_coe, if_neg (not_lt.mpr (varR_nonneg x)), hE, EReal.coe_add]

/-- The normalised row of real inputs is real: the scale is not zero, so the quotient is a product of reals. -/
theorem normRow_isReal (x w b : Fin 256 → EReal) (hx : ∀ j, IsReal (x j)) (hw : ∀ j, IsReal (w j))
    (hb : ∀ j, IsReal (b j)) (j : Fin 256) : IsReal (normRow x w b j) := by
  choose xr hxr using hx
  obtain ⟨wr, hwr⟩ := hw j
  obtain ⟨br, hbr⟩ := hb j
  obtain rfl : x = fun j => (xr j : EReal) := funext hxr
  obtain ⟨s, hs, hS⟩ := scale_coe xr
  refine ⟨(xr j - meanR xr) * (1 / s) * wr + br, ?_⟩
  rw [normRow, hS, mean_coe, Ideal.div_coe hs.ne', hwr, hbr]
  simp only [EReal.coe_add, EReal.coe_mul, EReal.coe_sub]

/-- For two real rows the expanded square is the sum of the squares of the differences, so it is not negative. -/
theorem sqdist_nonneg (a c : Fin 256 → EReal) (ha : ∀ j, IsReal (a j)) (hc : ∀ j, IsReal (c j)) :
    0 ≤ sqdist a c := by
  choose ar har using ha
  choose cr hcr using hc
  obtain rfl : a = fun j => (ar j : EReal) := funext har
  obtain rfl : c = fun j => (cr j : EReal) := funext hcr
  have h : sqdist (fun j => (ar j : EReal)) (fun j => (cr j : EReal))
      = ((∑ j, (ar j - cr j) * (ar j - cr j) : ℝ) : EReal) := by
    rw [sqdist, sqdistOf, sqsum, sqsum, inner, twoW_eq]
    simp only [← EReal.coe_mul, ← coe_sum, ← EReal.coe_add, ← EReal.coe_sub]
    congr 1
    rw [Finset.mul_sum, ← Finset.sum_add_distrib, ← Finset.sum_sub_distrib]
    exact Finset.sum_congr rfl fun j _ => by ring
  rw [h]
  exact EReal.coe_nonneg.mpr (Finset.sum_nonneg fun j _ => mul_self_nonneg _)

/-- For a row of real inputs, real scale and shift, and a real centre, the expanded square is a sum of squares of
    real differences, so clamping it at zero changes nothing. -/
theorem distClamp_eq_dist (x w b c : Fin 256 → EReal) (hx : ∀ j, IsReal (x j)) (hw : ∀ j, IsReal (w j))
    (hb : ∀ j, IsReal (b j)) (hc : ∀ j, IsReal (c j)) :
    distClamp (normRow x w b) c (sqsum c) = dist (normRow x w b) c := by
  have h0 : 0 ≤ sqdist (normRow x w b) c := sqdist_nonneg _ _ (normRow_isReal x w b hx hw hb) hc
  show Ideal.sqrt (max (sqdist (normRow x w b) c) zeroW) = Ideal.sqrt (sqdist (normRow x w b) c)
  rw [zeroW_eq, max_eq_left h0]

/-- Row by row: on real arrays the clamped distances are the distances. -/
theorem distClampRow_eq_distRow (X : (⟨2, ![131072, 256]⟩ : Shape).Idx → EReal) (W B : (⟨1, ![256]⟩ : Shape).Idx → EReal)
    (C : (⟨2, ![512, 256]⟩ : Shape).Idx → EReal) (hX : ∀ i, IsReal (X i)) (hW : ∀ i, IsReal (W i)) (hB : ∀ i, IsReal (B i))
    (hC : ∀ i, IsReal (C i)) : distClampRow X W B C = distRow X W B C := by
  funext r k
  exact distClamp_eq_dist (rowOf X r) (vecOf W) (vecOf B) (rowOf C k) (fun j => hX _) (fun j => hW _) (fun j => hB _)
    (fun j => hC _)

end Cert.SoftAssign

end
-- ==== Proof.Finite.lean ====
import proofs.«117127_j32066225832561_1_alg».proof.Pre_finite_inputs
import proofs.«117127_j32066225832561_1_alg».proof.Proof.Spec
import Idealize.ShloMosaic.Lib.ReduceAll

noncomputable section

namespace Cert.SoftAssign

open Idealize.ShloMosaic Idealize.ShloMosaic.ValueIdx

/-- The bit pattern `0x7F800000` denotes `+∞`. -/
theorem ofBits_posInf : Ideal.ofBits .f32 0x7F800000#32 = (⊤ : EReal) := by
  simp [Ideal.ofBits, Ideal.ieee]

/-- An extended real whose absolute value `max x (-x)` compares strictly below `+∞` is a real number: at `⊥` and
    at `⊤` the absolute value is `⊤`, which is not below itself. -/
theorem isReal_of_abs_lt (x : EReal)
    (h : Ideal.cmp .olt (max x (-x)) (Ideal.ofBits .f32 0x7F800000#32) = 1#1) : IsReal x := by
  rw [ofBits_posInf] at h
  induction x using EReal.rec with
  | bot => simp [Ideal.cmp] at h
  | coe r => exact ⟨r, rfl⟩
  | top => simp [Ideal.cmp] at h

/-- The rank-0 shape has one index. -/
instance subsingleton_scalarIdx : Subsingleton Cert.Pre_finite_inputs.S_.Idx :=
  ⟨fun a b => funext fun d => d.elim0⟩

/-- The precondition, all ones, says every entry of every argument array is a real number. -/
theorem isReal_of_pre [Cert.Pre_finite_inputs.Facts] (X : FVec Ideal Cert.Pre_finite_inputs.S131072x256 .f32)
    (W B : FVec Ideal Cert.Pre_finite_inputs.S256 .f32) (C : FVec Ideal Cert.Pre_finite_inputs.S512x256 .f32)
    (h : Cert.Pre_finite_inputs.fn (F := Ideal) X W B C = fun _ => 1#1) :
    (∀ i, IsReal (X i)) ∧ (∀ i, IsReal (W i)) ∧ (∀ i, IsReal (B i)) ∧ (∀ i, IsReal (C i)) := by
  -- The result is the conjunction (by `and`) of four reductions by `and`, one per argument.
  have h0 := congrFun h ValueIdx.ix0
  dsimp only [Cert.Pre_finite_inputs.fn, Cert.Pre_finite_inputs.fn_part1] at h0
  obtain ⟨h123, hC⟩ := IntOp.andi_eq_one.1 h0
  obtain ⟨h12, hB⟩ := IntOp.andi_eq_one.1 h123
  obtain ⟨hX, hW⟩ := IntOp.andi_eq_one.1 h12
  -- Each reduction that is 1 had a 1 at every index: there `|x| < +∞` holds, so the entry is real.
  refine ⟨fun i => ?_, fun i => ?_, fun i => ?_, fun i => ?_⟩
  · exact isReal_of_abs_lt _ (Host.reduce_andi_all _ _ _ _ _ hX i)
  · exact isReal_of_abs_lt _ (Host.reduce_andi_all _ _ _ _ _ hW i)
  · exact isReal_of_abs_lt _ (Host.reduce_andi_all _ _ _ _ _ hB i)
  · exact isReal_of_abs_lt _ (Host.reduce_andi_all _ _ _ _ _ hC i)

end Cert.SoftAssign

end
-- ==== Proof.RefDist.lean ====
import proofs.«117127_j32066225832561_1_alg».proof.Proof.Gen.ReferenceIdeal.Read
import proofs.«117127_j32066225832561_1_alg».proof.Proof.Spec

noncomputable section

namespace Cert.SoftAssign.Ref

open Idealize.ShloMosaic Idealize.ShloMosaic.ValueIdx Cert.SoftAssign Cert.ReferenceIdeal Cert.ReferenceIdeal.Read

variable (X : (⟨S131072x256, .f32⟩ : BufTy).Contents (Elt Ideal)) (W B : (⟨S256, .f32⟩ : BufTy).Contents (Elt Ideal))
  (C : (⟨S512x256, .f32⟩ : BufTy).Contents (Elt Ideal))

/-! ### Where each layout stage reads its operand

Every broadcast, reduction and transpose of the program reads its operand at an index computed from the result's
index; at an index given by its coordinates these are again indices given by coordinates. -/

private theorem idx_v0 (r : Fin 131072) (k : Fin 256) : idx_main_v0 (ix1 r) k = ix2 r k :=
  funext fun a => by match a with | ⟨0, _⟩ => rfl | ⟨1, _⟩ => rfl

private theorem idx_v1 (r : Fin 131072) (u : Fin 1) : idx_main_v1 (ix2 r u) = ix1 r :=
  funext fun a => by match a with | ⟨0, _⟩ => rfl

private theorem idx_v4 (r : Fin 131072) (j : Fin 256) : idx_main_v4 (ix2 r j) = ix2 r (0 : Fin 1) :=
  funext fun a => by match a with | ⟨0, _⟩ => rfl | ⟨1, _⟩ => rfl

private theorem idx_v7 (r : Fin 131072) (k : Fin 256) : idx_main_v7 (ix1 r) k = ix2 r k :=
  funext fun a => by match a with | ⟨0, _⟩ => rfl | ⟨1, _⟩ => rfl

private theorem idx_v8 (r : Fin 131072) (u : Fin 1) : idx_main_v8 (ix2 r u) = ix1 r :=
  funext fun a => by match a with | ⟨0, _⟩ => rfl

private theorem idx_v12 (r : Fin 131072) (j : Fin 256) : idx_main_v12 (ix2 r j) = ix2 r (0 : Fin 1) :=
  funext fun a => by match a with | ⟨0, _⟩ => rfl | ⟨1, _⟩ => rfl

private theorem idx_v16 (r : Fin 131072) (j : Fin 256) : idx_main_v16 (ix2 r j) = ix2 r (0 : Fin 1) :=
  funext fun a => by match a with | ⟨0, _⟩ => rfl | ⟨1, _⟩ => rfl

private theorem idx_v18 (u : Fin 1) (j : Fin 256) : idx_main_v18 (ix2 u j) = ix1 j :=
  funext fun a => by match a with | ⟨0, _⟩ => rfl

private theorem idx_v19 (r : Fin 131072) (j : Fin 256) : idx_main_v19 (ix2 r j) = ix2 (0 : Fin 1) j :=
  funext fun a => by match a with | ⟨0, _⟩ => rfl | ⟨1, _⟩ => rfl

private theorem idx_v21 (u : Fin 1) (j : Fin 256) : idx_main_v21 (ix2 u j) = ix1 j :=
  funext fun a => by match a with | ⟨0, _⟩ => rfl

private theorem idx_v22 (r : Fin 131072) (j : Fin 256) : idx_main_v22 (ix2 r j) = ix2 (0 : Fin 1) j :=
  funext fun a => by match a with | ⟨0, _⟩ => rfl | ⟨1, _⟩ => rfl

private theorem idx_v25 (r : Fin 131072) (k : Fin 256) : idx_main_v25 (ix1 r) k = ix2 r k :=
  funext fun a => by match a with | ⟨0, _⟩ => rfl | ⟨1, _⟩ => rfl

private theorem idx_v26 (r : Fin 131072) (u : Fin 1) : idx_main_v26 (ix2 r u) = ix1 r :=
  funext fun a => by match a with | ⟨0, _⟩ => rfl

private theorem idx_v28 (c : Fin 512) (k : Fin 256) : idx_main_v28 (ix1 c) k = ix2 c k :=
  funext fun a => by match a with | ⟨0, _⟩ => rfl | ⟨1, _⟩ => rfl

private theorem idx_v29 (u : Fin 1) (c : Fin 512) : idx_main_v29 (ix2 u c) = ix1 c :=
  funext fun a => by match a with | ⟨0, _⟩ => rfl

private theorem idx_v30 (r : Fin 131072) (c : Fin 512) : idx_main_v30 (ix2 r c) = ix2 r (0 : Fin 1) :=
  funext fun a => by match a with | ⟨0, _⟩ => rfl | ⟨1, _⟩ => rfl

private theorem idx_v31 (r : Fin 131072) (c : Fin 512) : idx_main_v31 (ix2 r c) = ix2 (0 : Fin 1) c :=
  funext fun a => by match a with | ⟨0, _⟩ => rfl | ⟨1, _⟩ => rfl

private theorem idx_v33 (j : Fin 256) (c : Fin 512) : idx_main_v33 (ix2 j c) = ix2 c j :=
  funext fun a => by match a with | ⟨0, _⟩ => rfl | ⟨1, _⟩ => rfl

private theorem lidx_v34 (r : Fin 131072) (c : Fin 512) (k : Fin 256) : lidx_main_v34 (ix2 r c) k = ix2 r k :=
  funext fun a => by match a with | ⟨0, _⟩ => rfl | ⟨1, _⟩ => rfl

private theorem ridx_v34 (r : Fin 131072) (c : Fin 512) (k : Fin 256) : ridx_main_v34 (ix2 r c) k = ix2 k c :=
  funext fun a => by match a with | ⟨0, _⟩ => rfl | ⟨1, _⟩ => rfl

/-! ### The mean, the variance and the scale of a row -/

/-- The sum of row `r`. -/
private theorem v0_at (r : Fin 131072) : val_main_v0 (F := Ideal) X (ix1 r) = ∑ j, rowOf X r j := by
  rw [val_main_v0_apply, val_main_cst_apply, Ideal.ofBits_def, Ideal.ofBits_zero_f32, zero_add]
  refine Finset.sum_congr rfl fun k _ => ?_
  rw [idx_v0]
  rfl

/-- The mean of row `r`. -/
private theorem v3_at (r : Fin 131072) (u : Fin 1) : val_main_v3 (F := Ideal) X (ix2 r u) = mean (rowOf X r) := by
  rw [val_main_v3_apply, val_main_v1_apply, val_main_v2_apply, val_main_cst_0_apply, idx_v1, v0_at,
    Ideal.hostDivf_def, Ideal.ofBits_def]
  rfl

/-- A centred entry of row `r` (as the variance reads it). -/
private theorem v5_at (r : Fin 131072) (j : Fin 256) :
    val_main_v5 (F := Ideal) X (ix2 r j) = rowOf X r j - mean (rowOf X r) := by
  rw [val_main_v5_apply, val_main_v4_apply, idx_v4, v3_at, Ideal.subf_def]
  rfl

/-- The variance of row `r`. -/
private theorem v10_at (r : Fin 131072) (u : Fin 1) : val_main_v10 (F := Ideal) X (ix2 r u) = var (rowOf X r) := by
  rw [val_main_v10_apply, val_main_v8_apply, val_main_v9_apply, val_main_cst_2_apply, idx_v8, val_main_v7_apply,
    val_main_cst_1_apply, Ideal.hostDivf_def, Ideal.ofBits_def, Ideal.ofBits_def, Ideal.ofBits_zero_f32, zero_add]
  unfold var
  refine congrArg (Ideal.div · featW) (Finset.sum_congr rfl fun k _ => ?_)
  rw [idx_v7, val_main_v6_apply, v5_at, Ideal.mulf_def]

/-- What row `r` is divided by. -/
private theorem v15_at (r : Fin 131072) (u : Fin 1) : val_main_v15 (F := Ideal) X (ix2 r u) = scale (rowOf X r) := by
  rw [val_main_v15_apply, val_main_v11_apply, val_main_v14_apply, val_main_cst_3_apply, v10_at, Ideal.addf_def,
    Ideal.hostUnary_sqrt_def, Ideal.ofBits_def]
  rfl

/-- A centred and scaled entry of row `r`. -/
private theorem v17_at (r : Fin 131072) (j : Fin 256) :
    val_main_v17 (F := Ideal) X (ix2 r j) = Ideal.div (rowOf X r j - mean (rowOf X r)) (scale (rowOf X r)) := by
  rw [val_main_v17_apply, val_main_v13_apply, val_main_v12_apply, val_main_v16_apply, idx_v12, idx_v16, v3_at, v15_at,
    Ideal.hostDivf_def, Ideal.subf_def]
  rfl

/-- The reference's normalised input, read at row `r`, feature `j`. -/
theorem ref_norm_apply (r : Fin 131072) (j : Fin 256) :
    val_main_v23 (F := Ideal) X W B (ix2 r j) = normAt X W B r j := by
  rw [val_main_v23_apply, val_main_v20_apply, val_main_v22_apply, val_main_v21_apply, val_main_v19_apply,
    val_main_v18_apply, idx_v19, idx_v22, idx_v18, idx_v21, v17_at, Ideal.addf_def, Ideal.mulf_def]
  rfl

/-! ### The sums of squares, the inner product and the distance -/

/-- The sum of the squares of the normalised row `r`. -/
private theorem v25_at (r : Fin 131072) : val_main_v25 (F := Ideal) X W B (ix1 r) = sqsum (normAt X W B r) := by
  rw [val_main_v25_apply, val_main_cst_4_apply, Ideal.ofBits_def, Ideal.ofBits_zero_f32, zero_add]
  unfold sqsum
  refine Finset.sum_congr rfl fun k _ => ?_
  rw [idx_v25, val_main_v24_apply, ref_norm_apply, Ideal.mulf_def]

/-- The sum of the squares of centre `c`. -/
private theorem v28_at (c : Fin 512) : val_main_v28 (F := Ideal) C (ix1 c) = sqsum (rowOf C c) := by
  rw [val_main_v28_apply, val_main_cst_5_apply, Ideal.ofBits_def, Ideal.ofBits_zero_f32, zero_add]
  unfold sqsum
  refine Finset.sum_congr rfl fun k _ => ?_
  rw [idx_v28, val_main_v27_apply, Ideal.mulf_def]
  rfl

/-- The two sums of squares added. -/
private theorem v32_at (r : Fin 131072) (c : Fin 512) :
    val_main_v32 (F := Ideal) X W B C (ix2 r c) = sqsum (normAt X W B r) + sqsum (rowOf C c) := by
  rw [val_main_v32_apply, val_main_v30_apply, val_main_v31_apply, val_main_v26_apply, val_main_v29_apply, idx_v30,
    idx_v31, idx_v26, idx_v29, v25_at, v28_at, Ideal.addf_def]

/-- The inner product of the normalised row `r` with centre `c`. -/
private theorem v34_at (r : Fin 131072) (c : Fin 512) :
    val_main_v34 (F := Ideal) X W B C (ix2 r c) = inner (normAt X W B r) (rowOf C c) := by
  rw [val_main_v34_apply]
  unfold inner
  refine Finset.sum_congr rfl fun k _ => ?_
  rw [lidx_v34, ridx_v34, ref_norm_apply, val_main_v33_apply, idx_v33]
  rfl

/-- The reference's first result, read at row `r`, centre `k`: the distance of the normalised row to the centre. -/
theorem ref_dist_apply (r : Fin 131072) (k : Fin 512) :
    val_main_v38 (F := Ideal) X W B C (ix2 r k) = distRow X W B C r k := by
  rw [val_main_v38_apply, val_main_v37_apply, val_main_v36_apply, val_main_v35_apply, val_main_cst_6_apply, v32_at,
    v34_at, Ideal.hostUnary_sqrt_def, Ideal.subf_def, Ideal.mulf_def, Ideal.ofBits_def]
  rfl

end Cert.SoftAssign.Ref

end
-- ==== Proof.RefTail.lean ====
import proofs.«117127_j32066225832561_1_alg».proof.Proof.Gen.ReferenceIdeal.Read
import proofs.«117127_j32066225832561_1_alg».proof.Proof.Spec

noncomputable section

namespace Cert.SoftAssign.Ref

open Idealize.ShloMosaic Idealize.ShloMosaic.ValueIdx Cert.SoftAssign Cert.ReferenceIdeal Cert.ReferenceIdeal.Read

variable (X : (⟨S131072x256, .f32⟩ : BufTy).Contents (Elt Ideal)) (W B : (⟨S256, .f32⟩ : BufTy).Contents (Elt Ideal))
  (C : (⟨S512x256, .f32⟩ : BufTy).Contents (Elt Ideal))

/-- The sum of row `r` of the distances. -/
private theorem ref_v39_apply (r : Fin 131072) :
    val_main_v39 (F := Ideal) X W B C (ix1 r) = ∑ k', val_main_v38 (F := Ideal) X W B C (ix2 r k') := by
  rw [val_main_v39_apply, val_main_cst_7_apply, Ideal.ofBits_def, Ideal.ofBits_zero_f32, zero_add]
  refine Finset.sum_congr rfl fun k' _ => ?_
  exact congrArg _ (funext fun a => Fin.ext (by match a with | ⟨0, _⟩ => rfl | ⟨1, _⟩ => rfl))

/-- The mean of row `r` of the distances. -/
private theorem ref_v42_apply (r : Fin 131072) (u : Fin 1) :
    val_main_v42 (F := Ideal) X W B C (ix2 r u)
      = Ideal.div (∑ k', val_main_v38 (F := Ideal) X W B C (ix2 r k')) centW := by
  rw [val_main_v42_apply, val_main_v40_apply, val_main_v41_apply, val_main_cst_8_apply, Ideal.hostDivf_def,
    Ideal.ofBits_def]
  refine congrArg (Ideal.div · centW) ?_
  refine Eq.trans (congrArg _ ?_) (ref_v39_apply X W B C r)
  exact funext fun a => Fin.ext (by match a with | ⟨0, _⟩ => rfl)

/-- The logits of row `r`. -/
private theorem ref_v46_apply (r : Fin 131072) (k : Fin 512) :
    val_main_v46 (F := Ideal) X W B C (ix2 r k)
      = logit (fun k' => val_main_v38 (F := Ideal) X W B C (ix2 r k')) k := by
  rw [val_main_v46_apply, val_main_v45_apply, val_main_cst_9_apply, val_main_v44_apply, val_main_v43_apply,
    Ideal.mulf_def, Ideal.hostDivf_def, Ideal.ofBits_def]
  unfold logit
  have h : val_main_v42 (F := Ideal) X W B C (idx_main_v43 (ix2 r k))
      = Ideal.div (∑ k', val_main_v38 (F := Ideal) X W B C (ix2 r k')) centW := by
    refine Eq.trans (congrArg _ ?_) (ref_v42_apply X W B C r 0)
    exact funext fun a => Fin.ext (by match a with | ⟨0, _⟩ => rfl | ⟨1, _⟩ => rfl)
  rw [h]

/-- The maximum of the logits of row `r`, from `-∞`. -/
private theorem ref_v47_apply (r : Fin 131072) :
    val_main_v47 (F := Ideal) X W B C (ix1 r)
      = (Finset.univ : Finset (Fin 512)).fold max ninfW
          (logit (fun k' => val_main_v38 (F := Ideal) X W B C (ix2 r k'))) := by
  unfold val_main_v47
  rw [Host.reduce_eq_fold_single FloatOps.maximumf _ _ Gen.reducesTo_S131072x512_S131072_d1 (by decide) Gen.h_S_]
  rw [val_main_cst_10_apply, Ideal.ofBits_def]
  refine Finset.fold_congr fun k _ => ?_
  refine Eq.trans (congrArg (val_main_v46 (F := Ideal) X W B C) ?_) (ref_v46_apply X W B C r k)
  exact funext fun a => Fin.ext (by match a with | ⟨0, _⟩ => rfl | ⟨1, _⟩ => rfl)

/-- The row maximum as both programs spell it: against `-∞` once more. -/
private theorem ref_v49_apply (r : Fin 131072) :
    val_main_v49 (F := Ideal) X W B C (ix1 r)
      = rowMax (logit (fun k' => val_main_v38 (F := Ideal) X W B C (ix2 r k'))) := by
  rw [val_main_v49_apply, val_main_v48_apply, val_main_cst_11_apply, ref_v47_apply, Ideal.maximumf_def,
    Ideal.ofBits_def]
  rfl

/-- The shifted exponentials of row `r`. -/
private theorem ref_v53_apply (r : Fin 131072) (k : Fin 512) :
    val_main_v53 (F := Ideal) X W B C (ix2 r k)
      = expo (fun k' => val_main_v38 (F := Ideal) X W B C (ix2 r k')) k := by
  rw [val_main_v53_apply, val_main_v52_apply, val_main_v51_apply, val_main_v50_apply, ref_v46_apply,
    Ideal.hostUnary_exp_def, Ideal.subf_def]
  have h : val_main_v49 (F := Ideal) X W B C (idx_main_v50 (idx_main_v51 (ix2 r k)))
      = rowMax (logit (fun k' => val_main_v38 (F := Ideal) X W B C (ix2 r k'))) := by
    refine Eq.trans (congrArg _ ?_) (ref_v49_apply X W B C r)
    exact funext fun a => Fin.ext (by match a with | ⟨0, _⟩ => rfl)
  rw [h]
  rfl

/-- The sum of the shifted exponentials of row `r`. -/
private theorem ref_v54_apply (r : Fin 131072) :
    val_main_v54 (F := Ideal) X W B C (ix1 r)
      = ∑ k', expo (fun k' => val_main_v38 (F := Ideal) X W B C (ix2 r k')) k' := by
  rw [val_main_v54_apply, val_main_cst_12_apply, Ideal.ofBits_def, Ideal.ofBits_zero_f32, zero_add]
  refine Finset.sum_congr rfl fun k' _ => ?_
  refine Eq.trans (congrArg (val_main_v53 (F := Ideal) X W B C) ?_) (ref_v53_apply X W B C r k')
  exact funext fun a => Fin.ext (by match a with | ⟨0, _⟩ => rfl | ⟨1, _⟩ => rfl)

/-- The reference's second result at row `r` is the soft assignment of row `r` of its first result. -/
theorem ref_assign_apply (r : Fin 131072) (k : Fin 512) :
    val_main_v57 (F := Ideal) X W B C (ix2 r k) = assign (fun k' => val_main_v38 (F := Ideal) X W B C (ix2 r k')) k := by
  rw [val_main_v57_apply, val_main_v56_apply, val_main_v55_apply, ref_v53_apply, Ideal.hostDivf_def]
  have h : val_main_v54 (F := Ideal) X W B C (idx_main_v55 (idx_main_v56 (ix2 r k)))
      = ∑ k', expo (fun k' => val_main_v38 (F := Ideal) X W B C (ix2 r k')) k' := by
    refine Eq.trans (congrArg _ ?_) (ref_v54_apply X W B C r)
    exact funext fun a => Fin.ext (by match a with | ⟨0, _⟩ => rfl)
  rw [h]
  rfl

/-- The reference's third result at row `r` is the reconstruction from row `r` of its second result. -/
theorem ref_recon_apply (r : Fin 131072) (j : Fin 256) :
    val_main_v58 (F := Ideal) X W B C (ix2 r j)
      = recon (fun k => val_main_v57 (F := Ideal) X W B C (ix2 r k)) (fun k => rowOf C k) j := by
  rw [val_main_v58_apply]
  unfold recon rowOf
  refine Finset.sum_congr rfl fun k _ => ?_
  refine congrArg₂ (· * ·) (congrArg (val_main_v57 (F := Ideal) X W B C) ?_) (congrArg C ?_)
  · exact funext fun a => Fin.ext (by match a with | ⟨0, _⟩ => rfl | ⟨1, _⟩ => rfl)
  · exact funext fun a => Fin.ext (by match a with | ⟨0, _⟩ => rfl | ⟨1, _⟩ => rfl)

end Cert.SoftAssign.Ref

end
-- ==== Proof.RefRows.lean ====
import proofs.«117127_j32066225832561_1_alg».proof.Proof.RefDist
import proofs.«117127_j32066225832561_1_alg».proof.Proof.RefTail

noncomputable section

namespace Cert.SoftAssign.Ref

open Idealize.ShloMosaic Idealize.ShloMosaic.ValueIdx Cert.SoftAssign Cert.ReferenceIdeal Cert.ReferenceIdeal.Read

/-! The reference's three results as whole arrays: the distances, their soft assignment row by row, and the
    reconstruction from the centres row by row. -/

variable (X : (⟨S131072x256, .f32⟩ : BufTy).Contents (Elt Ideal)) (W B : (⟨S256, .f32⟩ : BufTy).Contents (Elt Ideal))
  (C : (⟨S512x256, .f32⟩ : BufTy).Contents (Elt Ideal))

/-- The reference's first result is the array of distances. -/
theorem ref_dist : val_main_v38 (F := Ideal) X W B C = distArr (distRow X W B C) := by
  funext i
  refine (congrArg _ (eq_ix2 i)).trans ?_
  exact ref_dist_apply X W B C (i 0) (i 1)

/-- The reference's second result is each row's soft assignment. -/
theorem ref_assign : val_main_v57 (F := Ideal) X W B C = assignArr (distRow X W B C) := by
  funext i
  refine (congrArg _ (eq_ix2 i)).trans ?_
  refine (ref_assign_apply X W B C (i 0) (i 1)).trans ?_
  exact congrArg (fun d => assign d (i 1)) (funext fun k' => ref_dist_apply X W B C (i 0) k')

/-- The reference's third result is each row's reconstruction. -/
theorem ref_recon : val_main_v58 (F := Ideal) X W B C = reconArr (distRow X W B C) C := by
  funext i
  refine (congrArg _ (eq_ix2 i)).trans ?_
  refine (ref_recon_apply X W B C (i 0) (i 1)).trans ?_
  exact congrArg (fun p => recon p (fun k => rowOf C k) (i 1)) (funext fun k =>
    (ref_assign_apply X W B C (i 0) k).trans
      (congrArg (fun d => assign d k) (funext fun k' => ref_dist_apply X W B C (i 0) k')))

end Cert.SoftAssign.Ref

end
-- ==== Proof.KernelDist.lean ====
import proofs.«117127_j32066225832561_1_alg».proof.Proof.Gen.KernelIdeal.Skeleton
import proofs.«117127_j32066225832561_1_alg».proof.Proof.Spec
import Idealize.ShloMosaic.PureOps.Ideal.Laws
import Idealize.ShloMosaic.Lib.Pipeline.Value
import Idealize.ShloMosaic.Lib.ValueLayout

noncomputable section

namespace Cert.SoftAssign.Ker

open Idealize.ShloMosaic Idealize.ShloMosaic.ValueIdx Cert.SoftAssign Cert.KernelIdeal Cert.KernelIdeal.Gen

/-! ## Layout operations and a lane sum, read at an index given by coordinates -/

/-- An `[a]` array cast to `[a, 1]` (a reduction's result with its dropped axis kept as a unit axis) reads, at
    `(p, u)`, the operand at `p`, whatever the unit coordinate `u`. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index a reduction over axis 1 of an `[a, n]` array reads for result index `p` and dropped coordinate
    `k` is `(p, k)`. -/
theorem lift_axis1_ix {a n : ℕ} (h : (⟨2, ![a, n]⟩ : Shape).Reduces [1] ⟨1, ![a]⟩) (p : Fin a) (k : Fin n) :
    h.lift (ix1 p) k = ix2 p k := by
  funext c
  refine Fin.ext ?_
  match c with
  | ⟨0, _⟩ => rfl
  | ⟨1, _⟩ => rfl

/-- A float sum over the lanes (axis 1) of an `[a, n]` array from the zero accumulator, read at row `p`, is the sum
    of the row's entries. The format and accumulator conditions are stated in the form a reduction written with literal
    arguments carries them. -/
theorem multiReduction_add_lanes {a n : ℕ} (v : FVec Ideal ⟨2, ![a, n]⟩ .f32)
    (h : (⟨2, ![a, n]⟩ : Shape).Reduces [1] ⟨1, ![a]⟩) (hφ : FTy.f32 = FTy.f32 ∨ FTy.f32 = FTy.bf16)
    (hacc : (0x00000000#32 : BitVec 32) = 0x00000000#32) (p : Fin a) :
    multiReduction (F := Ideal) .add [1] ⟨1, ![a]⟩ v 0x00000000#32 h hφ hacc (ix1 p) = ∑ k : Fin n, v (ix2 p k) := by
  refine (Ideal.multiReduction_add_single v 0x00000000#32 h hφ hacc (ix1 p)).trans ?_
  exact Finset.sum_congr rfl fun k _ => congrArg v (lift_axis1_ix h p k)

/-! ## The product with the centres, read at an index -/

/-- The left operand's index of the product, axis 0: the output's row. -/
theorem lhs_ctr_0 (i : S2048x512.Idx) (q : dot_S2048x256_S512x256_S2048x512_1_1_0_0_n_n.contr.Idx) :
    (dot_S2048x256_S512x256_S2048x512_1_1_0_0_n_n.lhsIdx i q 0).val = (i 0).val := by
  unfold DotDims.lhsIdx
  rw [dif_neg (show ¬(0 : Fin S2048x256.rank) ∈ dot_S2048x256_S512x256_S2048x512_1_1_0_0_n_n.lhsBatch by decide), dif_pos (show (0 : Fin S2048x256.rank) ∈ dot_S2048x256_S512x256_S2048x512_1_1_0_0_n_n.lhsNonContracting by decide)]
  rfl
/-- The left operand's index, axis 1: the contracted feature. -/
theorem lhs_ctr_1 (i : S2048x512.Idx) (q : dot_S2048x256_S512x256_S2048x512_1_1_0_0_n_n.contr.Idx) :
    (dot_S2048x256_S512x256_S2048x512_1_1_0_0_n_n.lhsIdx i q 1).val = (q ⟨0, by decide⟩).val :=
  dot_S2048x256_S512x256_S2048x512_1_1_0_0_n_n.lhsIdx_val_of_single rfl i q
/-- The right operand's index, axis 0: the output's column (the centre). -/
theorem rhs_ctr_0 (i : S2048x512.Idx) (q : dot_S2048x256_S512x256_S2048x512_1_1_0_0_n_n.contr.Idx) :
    (dot_S2048x256_S512x256_S2048x512_1_1_0_0_n_n.rhsIdx i q 0).val = (i 1).val := by
  unfold DotDims.rhsIdx
  rw [dif_neg (show ¬(0 : Fin S512x256.rank) ∈ dot_S2048x256_S512x256_S2048x512_1_1_0_0_n_n.rhsBatch by decide), dif_pos (show (0 : Fin S512x256.rank) ∈ dot_S2048x256_S512x256_S2048x512_1_1_0_0_n_n.rhsNonContracting by decide)]
  rfl
/-- The right operand's index, axis 1: the contracted feature. -/
theorem rhs_ctr_1 (i : S2048x512.Idx) (q : dot_S2048x256_S512x256_S2048x512_1_1_0_0_n_n.contr.Idx) :
    (dot_S2048x256_S512x256_S2048x512_1_1_0_0_n_n.rhsIdx i q 1).val = (q ⟨0, by decide⟩).val :=
  dot_S2048x256_S512x256_S2048x512_1_1_0_0_n_n.rhsIdx_val_of_single rfl i q

/-- The product of a `[2048, 256]` block with the `[512, 256]` centres, both contracted on the features, into a zero
    accumulator: at row `p`, centre `k`, the sum over the features of the products. -/
theorem matmul_ctr_apply {φ₁ φ₂ : FTy} (A : FVec Ideal S2048x256 φ₁) (B : FVec Ideal S512x256 φ₂) (p : Fin 2048) (k : Fin 512) :
    matmul dot_S2048x256_S512x256_S2048x512_1_1_0_0_n_n none A B (constant (F := Ideal) S2048x512 .f32 0x00000000#32) (ix2 p k)
      = ∑ j : Fin 256, A (ix2 p j) * B (ix2 k j) := by
  simp only [matmul]
  rw [Ideal.matmul_constant_zero_apply, ← Equiv.sum_comp (ValueIdx.contrEquiv1 dot_S2048x256_S512x256_S2048x512_1_1_0_0_n_n 256 rfl rfl).symm]
  refine Finset.sum_congr rfl fun j _ => ?_
  have hj := ValueIdx.contrEquiv1_symm_val dot_S2048x256_S512x256_S2048x512_1_1_0_0_n_n 256 rfl rfl j
  have el : dot_S2048x256_S512x256_S2048x512_1_1_0_0_n_n.lhsIdx (ix2 p k) ((ValueIdx.contrEquiv1 dot_S2048x256_S512x256_S2048x512_1_1_0_0_n_n 256 rfl rfl).symm j) = ix2 p j := funext fun a => Fin.ext (by
    match a with
    | ⟨0, _⟩ => exact lhs_ctr_0 _ _
    | ⟨1, _⟩ => exact (lhs_ctr_1 _ _).trans hj)
  have er : dot_S2048x256_S512x256_S2048x512_1_1_0_0_n_n.rhsIdx (ix2 p k) ((ValueIdx.contrEquiv1 dot_S2048x256_S512x256_S2048x512_1_1_0_0_n_n 256 rfl rfl).symm j) = ix2 k j := funext fun a => Fin.ext (by
    match a with
    | ⟨0, _⟩ => exact rhs_ctr_0 _ _
    | ⟨1, _⟩ => exact (rhs_ctr_1 _ _).trans hj)
  rw [el, er]

/-- Row `p` of a block's clamped distances, from the five input blocks: the rows' block, the scale and shift (one row
    each), the centres, and the centres' sums of squares (one row). -/
def blkDist (x0 : Vec Ideal S2048x256 .f32) (x1 x2 : Vec Ideal S1x256 .f32) (x3 : Vec Ideal S512x256 .f32)
    (x4 : Vec Ideal S1x512 .f32) (p : Fin 2048) : Fin 512 → EReal :=
  fun k => distClamp (normRow (rowOf x0 p) (rowOf x1 0) (rowOf x2 0)) (rowOf x3 k) (x4 (ix2 0 k))

variable (x0 : Vec Ideal S2048x256 .f32) (x1 x2 : Vec Ideal S1x256 .f32) (x3 : Vec Ideal S512x256 .f32)
  (x4 : Vec Ideal S1x512 .f32)

/-! ## The normalised block -/

/-- The block's column of row means: the lane sum, kept as a unit axis, over the number of features. -/
def meanCol (x0 : Vec Ideal S2048x256 .f32) : FVec Ideal S2048x1 .f32 :=
  divf (shapeCast S2048x1 (multiReduction (F := Ideal) .add [1] S2048 x0 0x00000000#32 reduces_S2048x256_S2048 (.inl rfl) rfl)
    shapeCasts_S2048_S2048x1) (broadcast S2048x1 (Scalar.ofBits .f32 0x43800000#32))

/-- The block with each row's mean taken off. -/
def centred (x0 : Vec Ideal S2048x256 .f32) : FVec Ideal S2048x256 .f32 :=
  subf x0 (broadcastTo S2048x256 (meanCol x0) broadcasts_S2048x1_S2048x256)

/-- The block's column of divisors: the square root of the mean squared deviation, plus `ε`. -/
def scaleCol (x0 : Vec Ideal S2048x256 .f32) : FVec Ideal S2048x1 .f32 :=
  addf (sqrt (divf (shapeCast S2048x1 (multiReduction (F := Ideal) .add [1] S2048 (mulf (centred x0) (centred x0)) 0x00000000#32
      reduces_S2048x256_S2048 (.inl rfl) rfl) shapeCasts_S2048_S2048x1) (broadcast S2048x1 (Scalar.ofBits .f32 0x43800000#32))))
    (broadcast S2048x1 (Scalar.ofBits .f32 0x3727C5AC#32))

/-- The column of means at row `p` is the mean of row `p`. -/
theorem meanCol_apply (p : Fin 2048) (u : Fin 1) : meanCol x0 (ix2 p u) = mean (rowOf x0 p) := by
  show Ideal.div (shapeCast S2048x1 (multiReduction (F := Ideal) .add [1] S2048 x0 0x00000000#32 reduces_S2048x256_S2048
      (.inl rfl) rfl) shapeCasts_S2048_S2048x1 (ix2 p u)) featW = Ideal.div (∑ j, x0 (ix2 p j)) featW
  refine congrArg (Ideal.div · featW) ?_
  exact (shapeCast_a_a1_apply _ _ p u).trans (multiReduction_add_lanes x0 _ _ _ p)

/-- The centred block at `(p, j)`. -/
theorem centred_apply (p : Fin 2048) (j : Fin 256) : centred x0 (ix2 p j) = rowOf x0 p j - mean (rowOf x0 p) := by
  show x0 (ix2 p j) - broadcastTo S2048x256 (meanCol x0) broadcasts_S2048x1_S2048x256 (ix2 p j) = x0 (ix2 p j) - mean (rowOf x0 p)
  refine congrArg (x0 (ix2 p j) - ·) ?_
  exact (broadcastTo_a1_ab_apply _ _ p j).trans (meanCol_apply x0 p 0)

/-- The column of divisors at row `p` is the scale of row `p`. -/
theorem scaleCol_apply (p : Fin 2048) (u : Fin 1) : scaleCol x0 (ix2 p u) = scale (rowOf x0 p) := by
  show Ideal.sqrt (Ideal.div (shapeCast S2048x1 (multiReduction (F := Ideal) .add [1] S2048 (mulf (centred x0) (centred x0))
      0x00000000#32 reduces_S2048x256_S2048 (.inl rfl) rfl) shapeCasts_S2048_S2048x1 (ix2 p u)) featW) + epsW
    = Ideal.sqrt (Ideal.div (∑ j, (rowOf x0 p j - mean (rowOf x0 p)) * (rowOf x0 p j - mean (rowOf x0 p))) featW) + epsW
  refine congrArg (fun s => Ideal.sqrt (Ideal.div s featW) + epsW) ?_
  refine ((shapeCast_a_a1_apply _ _ p u).trans (multiReduction_add_lanes _ _ _ _ p)).trans ?_
  refine Finset.sum_congr rfl fun j _ => ?_
  show centred x0 (ix2 p j) * centred x0 (ix2 p j) = _
  rw [centred_apply]

/-- The body's normalised block at row `p`, feature `j`. -/
theorem pay4_apply (p : Fin 2048) (j : Fin 256) :
    k0_pay4 x0 x1 x2 (ix2 p j) = normRow (rowOf x0 p) (rowOf x1 0) (rowOf x2 0) j := by
  show Ideal.div (centred x0 (ix2 p j)) (broadcastTo S2048x256 (scaleCol x0) broadcasts_S2048x1_S2048x256 (ix2 p j))
        * broadcastTo S2048x256 (shapeCast S1x256 x1 shapeCasts_S1x256_S1x256) broadcasts_S1x256_S2048x256 (ix2 p j)
      + broadcastTo S2048x256 (shapeCast S1x256 x2 shapeCasts_S1x256_S1x256) broadcasts_S1x256_S2048x256 (ix2 p j)
    = Ideal.div (rowOf x0 p j - mean (rowOf x0 p)) (scale (rowOf x0 p)) * x1 (ix2 0 j) + x2 (ix2 0 j)
  rw [centred_apply, broadcastTo_a1_ab_apply, scaleCol_apply, shapeCast_self, shapeCast_self, broadcastTo_1b_ab_apply,
    broadcastTo_1b_ab_apply]

/-! ## The distances -/

/-- The body's sums of squares at row `p`, centre `k`: the normalised row's sum of squares plus the centre's. -/
theorem pay7_apply (p : Fin 2048) (k : Fin 512) :
    k0_pay7 x0 x1 x2 x4 (ix2 p k) = sqsum (normRow (rowOf x0 p) (rowOf x1 0) (rowOf x2 0)) + x4 (ix2 0 k) := by
  show broadcastTo S2048x512 (shapeCast S2048x1 (multiReduction (F := Ideal) .add [1] S2048
          (mulf (k0_pay4 x0 x1 x2) (k0_pay4 x0 x1 x2)) 0x00000000#32 reduces_S2048x256_S2048 (.inl rfl) rfl)
          shapeCasts_S2048_S2048x1) broadcasts_S2048x1_S2048x512 (ix2 p k)
      + broadcastTo S2048x512 (shapeCast S1x512 x4 shapeCasts_S1x512_S1x512) broadcasts_S1x512_S2048x512 (ix2 p k)
    = (∑ j, normRow (rowOf x0 p) (rowOf x1 0) (rowOf x2 0) j * normRow (rowOf x0 p) (rowOf x1 0) (rowOf x2 0) j) + x4 (ix2 0 k)
  rw [shapeCast_self, broadcastTo_1b_ab_apply]
  refine congrArg (· + x4 (ix2 0 k)) ?_
  refine ((broadcastTo_a1_ab_apply _ _ p k).trans ((shapeCast_a_a1_apply _ _ p 0).trans
    (multiReduction_add_lanes _ _ _ _ p))).trans ?_
  refine Finset.sum_congr rfl fun j _ => ?_
  show k0_pay4 x0 x1 x2 (ix2 p j) * k0_pay4 x0 x1 x2 (ix2 p j) = _
  rw [pay4_apply]

/-- The body's product at row `p`, centre `k`: the inner product of the normalised row with the centre. -/
theorem pay6_apply (p : Fin 2048) (k : Fin 512) :
    k0_pay6 x0 x1 x2 x3 (ix2 p k) = inner (normRow (rowOf x0 p) (rowOf x1 0) (rowOf x2 0)) (rowOf x3 k) := by
  show matmul dot_S2048x256_S512x256_S2048x512_1_1_0_0_n_n none (truncf .bf16 (k0_pay4 x0 x1 x2) bitsLt_bf16_f32)
      (truncf .bf16 x3 bitsLt_bf16_f32) (constant (F := Ideal) S2048x512 .f32 0x00000000#32) (ix2 p k)
    = ∑ j, normRow (rowOf x0 p) (rowOf x1 0) (rowOf x2 0) j * x3 (ix2 k j)
  refine (matmul_ctr_apply _ _ p k).trans ?_
  refine Finset.sum_congr rfl fun j _ => ?_
  show k0_pay4 x0 x1 x2 (ix2 p j) * x3 (ix2 k j) = _
  rw [pay4_apply]

/-- The body's distance payload at row `p`, centre `k`. -/
theorem pay1_apply (p : Fin 2048) (k : Fin 512) :
    k0_pay1 (k0_pay6 x0 x1 x2 x3) (k0_pay7 x0 x1 x2 x4) (Scalar.ofBits .f32 0x40000000#32) (ix2 p k)
      = blkDist x0 x1 x2 x3 x4 p k := by
  show Ideal.sqrt (max (k0_pay7 x0 x1 x2 x4 (ix2 p k) - twoW * k0_pay6 x0 x1 x2 x3 (ix2 p k)) zeroW)
    = Ideal.sqrt (max ((sqsum (normRow (rowOf x0 p) (rowOf x1 0) (rowOf x2 0)) + x4 (ix2 0 k))
        - twoW * inner (normRow (rowOf x0 p) (rowOf x1 0) (rowOf x2 0)) (rowOf x3 k)) zeroW)
  rw [pay7_apply, pay6_apply]

end Cert.SoftAssign.Ker

end
-- ==== Proof.KernelTail.lean ====
import proofs.«117127_j32066225832561_1_alg».proof.Proof.Gen.KernelIdeal.Skeleton
import proofs.«117127_j32066225832561_1_alg».proof.Proof.Spec
import Idealize.ShloMosaic.PureOps.Ideal.Laws
import Idealize.ShloMosaic.Lib.Pipeline.Value
import Idealize.ShloMosaic.Lib.ValueLayout

noncomputable section

namespace Cert.SoftAssign.Ker

open Idealize.ShloMosaic Idealize.ShloMosaic.ValueIdx Cert.SoftAssign Cert.KernelIdeal Cert.KernelIdeal.Gen

/-! ## Layout and reduction operations read at an index given by coordinates -/

/-- A vector `[a]` cast to a column `[a, 1]` reads, at `(p, u)`, the operand at `p`, whatever the unit coordinate `u`. -/
theorem shapeCast_a_a1_apply' {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the lanes to `[a, b]` reads, at `(p, c)`, the operand's row `p`. -/
theorem broadcastTo_a1_ab_apply' {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index a lane reduction of a matrix inserts over row `p` at lane `k` is `(p, k)`. -/
theorem tail_lift_ix1 {a b : ℕ} (h : (⟨2, ![a, b]⟩ : Shape).Reduces [1] ⟨1, ![a]⟩) (p : Fin a) (k : Fin b) :
    h.lift (ix1 p) k = ix2 p k := by
  funext c
  refine Fin.ext ?_
  match c with
  | ⟨0, _⟩ => rfl
  | ⟨1, _⟩ => rfl

/-- A lane sum of a matrix of ideal values, from the zero word, read at row `p`: the sum of that row. -/
theorem tail_rowSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (tail_lift_ix1 h p k)

/-- A lane maximum of a matrix of ideal values, from the word of `-∞`, read at row `p`: the fold of `max` over that row. -/
theorem tail_rowMax_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  exact congrArg (fun f => (Finset.univ : Finset (Fin b)).fold max (Ideal.ofBits .f32 0xFF800000#32) f)
    (funext fun k => congrArg v (tail_lift_ix1 h p k))

/-! ## The stages of the assignment payload, as array functions, read at an index -/

/-- A row statistic `r` kept as a column and spread back over the lanes reads, at `(p, c)`, `r` at `p`. -/
theorem tail_keepdims_apply {α : Type} (r : S2048.Idx → α) (p : Fin 2048) (c : Fin 512) :
    broadcastTo S2048x512 (shapeCast S2048x1 r shapeCasts_S2048_S2048x1) broadcasts_S2048x1_S2048x512 (ix2 p c) = r (ix1 p) :=
  (broadcastTo_a1_ab_apply' _ broadcasts_S2048x1_S2048x512 p c).trans
    (shapeCast_a_a1_apply' r shapeCasts_S2048_S2048x1 p (0 : Fin 1))

/-- The logits as the body forms them from an array of distances: each row over its mean, times `-32`. -/
def tail_logitArr (D : FVec Ideal S2048x512 .f32) : FVec Ideal S2048x512 .f32 :=
  mulf (broadcast S2048x512 (Scalar.ofBits (F := Ideal) .f32 0xC2000000#32))
    (divf D (broadcastTo S2048x512
      (divf (shapeCast S2048x1 (multiReduction .add [1] S2048 D 0x00000000#32 reduces_S2048x512_S2048 (.inl rfl) rfl) shapeCasts_S2048_S2048x1)
        (broadcast S2048x1 (Scalar.ofBits (F := Ideal) .f32 0x44000000#32)))
      broadcasts_S2048x1_S2048x512))

/-- The shifted exponentials as the body forms them from an array of logits. -/
def tail_expArr (L : FVec Ideal S2048x512 .f32) : FVec Ideal S2048x512 .f32 :=
  exp (subf L (broadcastTo S2048x512
    (shapeCast S2048x1
      (maximumf (broadcast S2048 (Scalar.ofBits (F := Ideal) .f32 0xFF800000#32))
        (multiReduction .maximumf [1] S2048 L 0xFF800000#32 reduces_S2048x512_S2048 (.inl rfl) rfl))
      shapeCasts_S2048_S2048x1)
    broadcasts_S2048x1_S2048x512))

/-- Each row over its own sum, as the body forms it. -/
def tail_normArr (E : FVec Ideal S2048x512 .f32) : FVec Ideal S2048x512 .f32 :=
  divf E (broadcastTo S2048x512
    (shapeCast S2048x1 (multiReduction .add [1] S2048 E 0x00000000#32 reduces_S2048x512_S2048 (.inl rfl) rfl) shapeCasts_S2048_S2048x1)
    broadcasts_S2048x1_S2048x512)

/-- The logits at `(p, q)` are the specification's logit of row `p` of the distances. -/
theorem tail_logitArr_apply (D : FVec Ideal S2048x512 .f32) (p : Fin 2048) (q : Fin 512) :
    tail_logitArr D (ix2 p q) = logit (fun k' => D (ix2 p k')) q := by
  have hmean : broadcastTo S2048x512
      (divf (shapeCast S2048x1 (multiReduction .add [1] S2048 D 0x00000000#32 reduces_S2048x512_S2048 (.inl rfl) rfl) shapeCasts_S2048_S2048x1)
        (broadcast S2048x1 (Scalar.ofBits (F := Ideal) .f32 0x44000000#32)))
      broadcasts_S2048x1_S2048x512 (ix2 p q) = Ideal.div (∑ k' : Fin 512, D (ix2 p k')) centW := by
    refine (broadcastTo_a1_ab_apply' _ broadcasts_S2048x1_S2048x512 p q).trans ?_
    show Ideal.div (shapeCast S2048x1 _ shapeCasts_S2048_S2048x1 (ix2 p (0 : Fin 1))) centW = _
    refine congrArg (fun x => Ideal.div x centW) ?_
    exact (shapeCast_a_a1_apply' _ shapeCasts_S2048_S2048x1 p (0 : Fin 1)).trans
      (tail_rowSum_apply D reduces_S2048x512_S2048 (.inl rfl) rfl p)
  show alphaW * Ideal.div (D (ix2 p q)) _ = alphaW * Ideal.div (D (ix2 p q)) _
  rw [hmean]

/-- The shifted exponentials at `(p, q)`: the exponential of the logit less its row's maximum. -/
theorem tail_expArr_apply (L : FVec Ideal S2048x512 .f32) (p : Fin 2048) (q : Fin 512) :
    tail_expArr L (ix2 p q) = Ideal.exp (L (ix2 p q) - rowMax (fun k' => L (ix2 p k'))) := by
  have hmax : broadcastTo S2048x512
      (shapeCast S2048x1
        (maximumf (broadcast S2048 (Scalar.ofBits (F := Ideal) .f32 0xFF800000#32))
          (multiReduction .maximumf [1] S2048 L 0xFF800000#32 reduces_S2048x512_S2048 (.inl rfl) rfl))
        shapeCasts_S2048_S2048x1)
      broadcasts_S2048x1_S2048x512 (ix2 p q) = rowMax (fun k' => L (ix2 p k')) := by
    refine (tail_keepdims_apply _ p q).trans ?_
    rw [maximumf_apply, broadcast_apply, tail_rowMax_apply L reduces_S2048x512_S2048 (.inl rfl) rfl p, Ideal.ofBits_def]
    rfl
  show Ideal.exp (L (ix2 p q) - _) = _
  rw [hmax]

/-- A row over its sum at `(p, q)`. -/
theorem tail_normArr_apply (E : FVec Ideal S2048x512 .f32) (p : Fin 2048) (q : Fin 512) :
    tail_normArr E (ix2 p q) = Ideal.div (E (ix2 p q)) (∑ k' : Fin 512, E (ix2 p k')) := by
  show Ideal.div (E (ix2 p q)) _ = _
  refine congrArg (fun x => Ideal.div (E (ix2 p q)) x) ?_
  exact (tail_keepdims_apply _ p q).trans (tail_rowSum_apply E reduces_S2048x512_S2048 (.inl rfl) rfl p)

/-! ## The reconstruction's contraction read at an index -/

/-- The left operand's row under the contraction is the result's row … -/
theorem tail_lhs_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
/-- … and its lane is the contracted coordinate. -/
theorem tail_lhs_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
/-- The right operand's row under the contraction is the contracted coordinate … -/
theorem tail_rhs_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
/-- … and its lane is the result's lane. -/
theorem tail_rhs_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The matrix product into the zero splat, contracted on the 512 centres, read at `(p, j)`: the sum over the centres of
    the left operand's row `p` times the right operand's column `j`. -/
theorem tail_matmul_apply {φ₁ φ₂ : FTy} (A : FVec Ideal S2048x512 φ₁) (C : FVec Ideal S512x256 φ₂) (p : Fin 2048) (j : Fin 256) :
    matmul dot_S2048x512_S512x256_S2048x256_1_0_0_1_n_n none A C (constant S2048x256 .f32 0x00000000#32) (ix2 p j)
      = ∑ k : Fin 512, A (ix2 p k) * C (ix2 k j) := by
  refine (Ideal.matmul_constant_zero_apply dot_S2048x512_S512x256_S2048x256_1_0_0_1_n_n none A C (ix2 p j)).trans ?_
  rw [← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p j) ((contrEquiv1 dot_S2048x512_S512x256_S2048x256_1_0_0_1_n_n 512 rfl rfl).symm k) = ix2 p k := funext fun a => Fin.ext (by
    match a with
    | ⟨0, _⟩ => exact tail_lhs_0 _ _
    | ⟨1, _⟩ => exact (tail_lhs_1 _ _).trans hk)
  have er : dot_S2048x512_S512x256_S2048x256_1_0_0_1_n_n.rhsIdx (ix2 p j) ((contrEquiv1 dot_S2048x512_S512x256_S2048x256_1_0_0_1_n_n 512 rfl rfl).symm k) = ix2 k j := funext fun a => Fin.ext (by
    match a with
    | ⟨0, _⟩ => exact (tail_rhs_0 _ _).trans hk
    | ⟨1, _⟩ => exact tail_rhs_1 _ _)
  rw [el, er]

/-! ## The two payloads -/

variable (v36 : FVec Ideal S512x256 .bf16) (v37 v40 : FVec Ideal S2048x512 .f32) (s : Ideal .f32)

/-- The assignment payload is the three stages in turn over the distance payload. -/
theorem tail_pay2_eq : k0_pay2 v37 v40 s = tail_normArr (tail_expArr (tail_logitArr (k0_pay1 v37 v40 s))) := rfl

/-- The body's assignment payload at row `p` is the soft assignment of row `p` of its distance payload. -/
theorem pay2_apply (p : Fin 2048) (k : Fin 512) :
    k0_pay2 v37 v40 s (ix2 p k) = assign (fun k' => k0_pay1 v37 v40 s (ix2 p k')) k := by
  rw [tail_pay2_eq]
  generalize k0_pay1 v37 v40 s = D
  have hl : (fun k' => tail_logitArr D (ix2 p k')) = logit (fun k' => D (ix2 p k')) :=
    funext fun k' => tail_logitArr_apply D p k'
  have he : ∀ q : Fin 512, tail_expArr (tail_logitArr D) (ix2 p q) = expo (fun k' => D (ix2 p k')) q := fun q => by
    rw [tail_expArr_apply, hl, tail_logitArr_apply]
    rfl
  rw [tail_normArr_apply, he k]
  simp only [he]
  rfl

/-- The body's reconstruction payload at row `p` is the reconstruction from row `p` of its assignment payload. -/
theorem pay3_apply (p : Fin 2048) (j : Fin 256) :
    k0_pay3 v36 v37 v40 s (ix2 p j) = recon (fun k => k0_pay2 v37 v40 s (ix2 p k)) (fun k => rowOf v36 k) j := by
  unfold k0_pay3
  generalize k0_pay2 v37 v40 s = A
  exact tail_matmul_apply (truncf .bf16 A bitsLt_bf16_f32) v36 p j

end Cert.SoftAssign.Ker

end
-- ==== Proof.KernelRows.lean ====
import proofs.«117127_j32066225832561_1_alg».proof.Proof.Gen.KernelIdeal.Frame
import proofs.«117127_j32066225832561_1_alg».proof.Proof.KernelDist
import proofs.«117127_j32066225832561_1_alg».proof.Proof.KernelTail

noncomputable section

namespace Cert.SoftAssign.Ker

open Idealize.ShloMosaic Idealize.ShloMosaic.ValueIdx Cert.SoftAssign Cert.KernelIdeal Cert.KernelIdeal.Gen

/-! What each output buffer holds after the body, read at an index: the one store of each window covers its
    buffer and every load reads a whole input block, so the buffer is the store's value of the blocks themselves. -/

theorem hz : (![0, 0] : Fin 2 → Nat) = fun _ => 0 := funext fun a => by fin_cases a <;> rfl

variable (x0 : Vec Ideal S2048x256 .f32) (x1 x2 : Vec Ideal S1x256 .f32) (x3 : Vec Ideal S512x256 .f32)
  (x4 : Vec Ideal S1x512 .f32)

/-- The distances' buffer is the distance payload of the input blocks. -/
theorem out5_eq : out0_5 x0 x1 x2 x3 x4
    = k0_pay1 (k0_pay6 x0 x1 x2 x3) (k0_pay7 x0 x1 x2 x4) (Scalar.ofBits .f32 0x40000000#32) := by
  unfold out0_5
  rw [View.canon_unit_zero hz]
  simp only [View.ld_unit_zero (S := S2048x256) hz, View.ld_unit_zero (S := S1x256) hz,
    View.ld_unit_zero (S := S512x256) hz, View.ld_unit_zero (S := S1x512) hz]

/-- The assignments' buffer is the assignment payload of the input blocks. -/
theorem out6_eq : out0_6 x0 x1 x2 x3 x4
    = k0_pay2 (k0_pay6 x0 x1 x2 x3) (k0_pay7 x0 x1 x2 x4) (Scalar.ofBits .f32 0x40000000#32) := by
  unfold out0_6
  rw [View.canon_unit_zero hz]
  simp only [View.ld_unit_zero (S := S2048x256) hz, View.ld_unit_zero (S := S1x256) hz,
    View.ld_unit_zero (S := S512x256) hz, View.ld_unit_zero (S := S1x512) hz]

/-- The reconstruction's buffer is the reconstruction payload of the input blocks. -/
theorem out7_eq : out0_7 x0 x1 x2 x3 x4
    = k0_pay3 (k0_pay5 x3) (k0_pay6 x0 x1 x2 x3) (k0_pay7 x0 x1 x2 x4) (Scalar.ofBits .f32 0x40000000#32) := by
  unfold out0_7
  rw [View.canon_unit_zero hz]
  simp only [View.ld_unit_zero (S := S2048x256) hz, View.ld_unit_zero (S := S1x256) hz,
    View.ld_unit_zero (S := S512x256) hz, View.ld_unit_zero (S := S1x512) hz]

/-- Row `p`, centre `k` of the distances' buffer. -/
theorem out5_apply (p : Fin 2048) (k : Fin 512) :
    out0_5 x0 x1 x2 x3 x4 (ix2 p k) = blkDist x0 x1 x2 x3 x4 p k := by
  rw [out5_eq]
  exact pay1_apply x0 x1 x2 x3 x4 p k

/-- Row `p` of the assignments' buffer is the soft assignment of row `p` of the distances. -/
theorem out6_apply (p : Fin 2048) (k : Fin 512) :
    out0_6 x0 x1 x2 x3 x4 (ix2 p k) = assign (blkDist x0 x1 x2 x3 x4 p) k := by
  rw [out6_eq, pay2_apply]
  exact congrArg (fun d => assign d k) (funext fun k' => pay1_apply x0 x1 x2 x3 x4 p k')

/-- Row `p` of the reconstruction's buffer is the reconstruction from row `p` of the assignments; the centres enter
    through a change of float format, the identity here. -/
theorem out7_apply (p : Fin 2048) (j : Fin 256) :
    out0_7 x0 x1 x2 x3 x4 (ix2 p j) = recon (assign (blkDist x0 x1 x2 x3 x4 p)) (fun k => rowOf x3 k) j := by
  rw [out7_eq, pay3_apply]
  have e : (fun k => k0_pay2 (k0_pay6 x0 x1 x2 x3) (k0_pay7 x0 x1 x2 x4) (Scalar.ofBits .f32 0x40000000#32) (ix2 p k))
      = assign (blkDist x0 x1 x2 x3 x4 p) := funext fun k => by
    rw [pay2_apply]
    exact congrArg (fun d => assign d k) (funext fun k' => pay1_apply x0 x1 x2 x3 x4 p k')
  rw [e]
  rfl

end Cert.SoftAssign.Ker

end
-- ==== Proof.KernelBlocks.lean ====
import proofs.«117127_j32066225832561_1_alg».proof.Proof.Gen.KernelIdeal.Value
import proofs.«117127_j32066225832561_1_alg».proof.Proof.KernelRows
import Idealize.ShloMosaic.Lib.StableHlo.Run
import Idealize.ShloMosaic.Lib.ValueLayout
import Idealize.ShloMosaic.PureOps.Ideal.Laws
import Idealize.ShloMosaic.Lib.Tactic

noncomputable section

namespace Cert.SoftAssign.Blocks

open Idealize.ShloMosaic Idealize.ShloMosaic.ValueIdx Cert.SoftAssign Cert.KernelIdeal Cert.KernelIdeal.Gen Idealize.ShloMosaic.TcCoe Idealize.SL.Sem
open Idealize.ShloMosaic.Pipeline (Dat)

/-! The kernel's three result arrays after the run, as functions of the four argument arrays: what each input window's
    block holds (rows of the input; the scale and the shift recast as one row each; the centres; each centre's sum of
    squares, which the program computes before the launch), what each point writes back, that the 64 blocks of 2048
    rows cover each result array, and the run. -/

variable (m : (ℓ : Loc nD τ sig) → Buf (Elt Ideal) ℓ) (ρ : Dev nD → PrngReg)

/-- The four argument arrays on core `c`, as launched. -/
abbrev argX (c : Dev nD) : S131072x256.Idx → EReal := m ((c : Thread nD τ).loc main_arg0)
abbrev argW (c : Dev nD) : S256.Idx → EReal := m ((c : Thread nD τ).loc main_arg1)
abbrev argB (c : Dev nD) : S256.Idx → EReal := m ((c : Thread nD τ).loc main_arg2)
abbrev argC (c : Dev nD) : S512x256.Idx → EReal := m ((c : Thread nD τ).loc main_arg3)

/-- The index maps over the grid of 64 points: the rows' window and the three outputs move down one block of 2048
    rows a point; the scale, the shift, the centres and the centres' sums of squares stay at block zero. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `p` of the rows' block at point `t` is row `2048 t + p` of the input. -/
theorem iblk0_apply (c : Dev nD) (t : Fin cfg0.N) (p : Fin 2048) (j : Fin 256) (r : Fin 131072)
    (hr : r.val = 2048 * t.val + p.val) :
    (iblk m c 0 t : Vec Ideal S2048x256 .f32) (ix2 p j) = argX m c (ix2 r j) := by
  obtain ⟨⟨e0, e1⟩, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 2048 + 1 * p.val = r.val; rw [e0, hr]; omega
  | ⟨1, _⟩ => show win0_0.index t (1 : Fin 2) * 256 + 1 * j.val = j.val; rw [e1]; omega

/-- The scale's window holds the scale recast as one row. -/
theorem V_scale (c : Dev nD) : (V m c main_v0 : S1x256.Idx → EReal) = shapeCast S1x256 (argW m c) shapeCasts_S256_S1x256 := by
  dsimp only [Gen.V, Gen.hostOps0]
  after_results
  rfl

/-- The shift's window holds the shift recast as one row. -/
theorem V_shift (c : Dev nD) : (V m c main_v1 : S1x256.Idx → EReal) = shapeCast S1x256 (argB m c) shapeCasts_S256_S1x256 := by
  dsimp only [Gen.V, Gen.hostOps0]
  after_results
  rfl

/-- The fifth window holds, as one row, each centre's sum of squares: the centres squared, summed along the
    features from zero, stood up as a column and recast as a row. -/
theorem V_csq (c : Dev nD) : (V m c main_v5 : S1x512.Idx → EReal) = shapeCast S1x512 (broadcastInDim S512x1 ![0] bcast_S512_S512x1_0 (Host.reduceAdd (F := Ideal) (mulf (argC m c) (argC m c)) (constant (F := Ideal) S_ .f32 0x00000000#32) reducesTo_S512x256_S512_d1 h_S_)) shapeCasts_S512x1_S1x512 := by
  dsimp only [Gen.V, Gen.hostOps0]
  after_results
  rfl

/-- The one row of the scale's block is the scale. -/
theorem iblk1_apply (c : Dev nD) (t : Fin cfg0.N) (j : Fin 256) :
    (iblk m c 1 t : Vec Ideal S1x256 .f32) (ix2 0 j) = argW m c (ix1 j) := by
  obtain ⟨-, ⟨e0, e1⟩, -⟩ := idx_facts t
  unfold iblk
  rw [View.read_apply]
  show (V m c main_v0 : S1x256.Idx → EReal) _ = _
  rw [V_scale]
  refine Eq.trans (congrArg _ ?_) (shapeCast_a_1a_apply (argW m c) shapeCasts_S256_S1x256 (0 : Fin 1) j)
  funext a
  apply Fin.ext
  match a with
  | ⟨0, _⟩ => show win0_1.index t (0 : Fin 2) * 1 + 1 * 0 = 0; rw [e0]
  | ⟨1, _⟩ => show win0_1.index t (1 : Fin 2) * 256 + 1 * j.val = j.val; rw [e1]; omega

/-- The one row of the shift's block is the shift. -/
theorem iblk2_apply (c : Dev nD) (t : Fin cfg0.N) (j : Fin 256) :
    (iblk m c 2 t : Vec Ideal S1x256 .f32) (ix2 0 j) = argB m c (ix1 j) := by
  obtain ⟨-, -, ⟨e0, e1⟩, -⟩ := idx_facts t
  unfold iblk
  rw [View.read_apply]
  show (V m c main_v1 : S1x256.Idx → EReal) _ = _
  rw [V_shift]
  refine Eq.trans (congrArg _ ?_) (shapeCast_a_1a_apply (argB m c) shapeCasts_S256_S1x256 (0 : Fin 1) j)
  funext a
  apply Fin.ext
  match a with
  | ⟨0, _⟩ => show win0_2.index t (0 : Fin 2) * 1 + 1 * 0 = 0; rw [e0]
  | ⟨1, _⟩ => show win0_2.index t (1 : Fin 2) * 256 + 1 * j.val = j.val; rw [e1]; omega

/-- The centres' block is the centres, at every point. -/
theorem iblk3_apply (c : Dev nD) (t : Fin cfg0.N) (k : Fin 512) (j : Fin 256) :
    (iblk m c 3 t : Vec Ideal S512x256 .f32) (ix2 k j) = argC m c (ix2 k j) := by
  obtain ⟨-, -, -, ⟨e0, e1⟩, -⟩ := idx_facts t
  unfold iblk
  rw [View.read_apply]
  show V m c main_arg3 _ = m ((c : Thread nD τ).loc main_arg3) _
  rw [V_main_arg3]
  congr 1
  funext a
  apply Fin.ext
  match a with
  | ⟨0, _⟩ => show win0_3.index t (0 : Fin 2) * 512 + 1 * k.val = k.val; rw [e0]; omega
  | ⟨1, _⟩ => show win0_3.index t (1 : Fin 2) * 256 + 1 * j.val = j.val; rw [e1]; omega

/-- The sum along the features, from zero, of the centres squared, at centre `k`. -/
theorem csq_apply (C : S512x256.Idx → EReal) (k : Fin 512) :
    Host.reduceAdd (F := Ideal) (mulf C C) (constant (F := Ideal) S_ .f32 0x00000000#32) reducesTo_S512x256_S512_d1 h_S_ (ix1 k)
      = sqsum (rowOf C k) := by
  simp only [Host.reduceAdd, Ideal.hostReduceAdd_def]
  rw [Ideal.hostReduceAdd_single reducesTo_S512x256_S512_d1 (by decide)]
  show Ideal.ofBits .f32 0x00000000#32 + _ = _
  rw [Ideal.ofBits_zero_f32, zero_add]
  refine Finset.sum_congr rfl fun j _ => ?_
  have e : (Shape.Reduces.lift (by decide : S512x256.Reduces [1] S512) (ix1 k) j) = ix2 k j :=
    funext fun a => Fin.ext (by match a with | ⟨0, _⟩ => rfl | ⟨1, _⟩ => rfl)
  rw [e]
  rfl

/-- Entry `k` of the one row of the fifth block is centre `k`'s sum of squares. -/
theorem iblk4_apply (c : Dev nD) (t : Fin cfg0.N) (k : Fin 512) :
    (iblk m c 4 t : Vec Ideal S1x512 .f32) (ix2 0 k) = sqsum (rowOf (argC m c) k) := by
  obtain ⟨-, -, -, -, ⟨e0, e1⟩, -⟩ := idx_facts t
  unfold iblk
  rw [View.read_apply]
  show (V m c main_v5 : S1x512.Idx → EReal) _ = _
  rw [V_csq]
  have hidx : ((cfg0.win 4).blk t).view.emb (ix2 (0 : Fin 1) k) = (ix2 (0 : Fin 1) k : S1x512.Idx) := by
    funext a
    apply Fin.ext
    match a with
    | ⟨0, _⟩ => show win0_4.index t (0 : Fin 2) * 1 + 1 * 0 = 0; rw [e0]
    | ⟨1, _⟩ => show win0_4.index t (1 : Fin 2) * 512 + 1 * k.val = k.val; rw [e1]; omega
  refine Eq.trans (congrArg _ hidx) ?_
  refine (shapeCast_apply _ shapeCasts_S512x1_S1x512 (ix2 (0 : Fin 1) k) (ix2 k (0 : Fin 1)) (by
    rw [Shape.rowMajor_val_two, Shape.rowMajor_val_two]
    show k.val * 1 + 0 = 0 * 512 + k.val
    omega)).trans ?_
  refine (broadcastInDim_apply _ bcast_S512_S512x1_0 _ (ix2 k (0 : Fin 1)) (ix1 k) (fun a => match a with
    | ⟨0, _⟩ => by show k.val = if (512 : Nat) = 1 then 0 else k.val; rw [if_neg (by decide)])).trans ?_
  exact csq_apply (argC m c) k

/-- Row `p` of the block distances at point `t` is row `2048 t + p` of the clamped distances of the arrays. -/
theorem blkDist_eq (c : Dev nD) (t : Fin cfg0.N) (p : Fin 2048) (r : Fin 131072) (hr : r.val = 2048 * t.val + p.val) :
    Ker.blkDist (iblk m c 0 t) (iblk m c 1 t) (iblk m c 2 t) (iblk m c 3 t) (iblk m c 4 t) p
      = distClampRow (argX m c) (argW m c) (argB m c) (argC m c) r := by
  funext k
  have h0 : rowOf (iblk m c 0 t : Vec Ideal S2048x256 .f32) p = rowOf (argX m c) r :=
    funext fun j => iblk0_apply m c t p j r hr
  have h1 : rowOf (iblk m c 1 t : Vec Ideal S1x256 .f32) 0 = vecOf (argW m c) := funext fun j => iblk1_apply m c t j
  have h2 : rowOf (iblk m c 2 t : Vec Ideal S1x256 .f32) 0 = vecOf (argB m c) := funext fun j => iblk2_apply m c t j
  have h3 : rowOf (iblk m c 3 t : Vec Ideal S512x256 .f32) k = rowOf (argC m c) k := funext fun j => iblk3_apply m c t k j
  show distClamp (normRow (rowOf (iblk m c 0 t : Vec Ideal S2048x256 .f32) p) (rowOf (iblk m c 1 t : Vec Ideal S1x256 .f32) 0)
      (rowOf (iblk m c 2 t : Vec Ideal S1x256 .f32) 0)) (rowOf (iblk m c 3 t : Vec Ideal S512x256 .f32) k)
      ((iblk m c 4 t : Vec Ideal S1x512 .f32) (ix2 0 k))
    = distClamp (normRow (rowOf (argX m c) r) (vecOf (argW m c)) (vecOf (argB m c))) (rowOf (argC m c) k)
      (sqsum (rowOf (argC m c) k))
  rw [h0, h1, h2, h3, iblk4_apply]

/-- The distances' buffer at any index of its block shape. -/
theorem out5_at (x0 : Vec Ideal S2048x256 .f32) (x1 x2 : Vec Ideal S1x256 .f32) (x3 : Vec Ideal S512x256 .f32)
    (x4 : Vec Ideal S1x512 .f32) (y : S2048x512.Idx) :
    out0_5 x0 x1 x2 x3 x4 y = Ker.blkDist x0 x1 x2 x3 x4 (y 0) (y 1) :=
  (congrArg (out0_5 x0 x1 x2 x3 x4) (eq_ix2 y)).trans (Ker.out5_apply x0 x1 x2 x3 x4 (y 0) (y 1))

/-- The assignments' buffer at any index of its block shape. -/
theorem out6_at (x0 : Vec Ideal S2048x256 .f32) (x1 x2 : Vec Ideal S1x256 .f32) (x3 : Vec Ideal S512x256 .f32)
    (x4 : Vec Ideal S1x512 .f32) (y : S2048x512.Idx) :
    out0_6 x0 x1 x2 x3 x4 y = assign (Ker.blkDist x0 x1 x2 x3 x4 (y 0)) (y 1) :=
  (congrArg (out0_6 x0 x1 x2 x3 x4) (eq_ix2 y)).trans (Ker.out6_apply x0 x1 x2 x3 x4 (y 0) (y 1))

/-- The reconstruction's buffer at any index of its block shape. -/
theorem out7_at (x0 : Vec Ideal S2048x256 .f32) (x1 x2 : Vec Ideal S1x256 .f32) (x3 : Vec Ideal S512x256 .f32)
    (x4 : Vec Ideal S1x512 .f32) (y : S2048x256.Idx) :
    out0_7 x0 x1 x2 x3 x4 y = recon (assign (Ker.blkDist x0 x1 x2 x3 x4 (y 0))) (fun k => rowOf x3 k) (y 1) :=
  (congrArg (out0_7 x0 x1 x2 x3 x4) (eq_ix2 y)).trans (Ker.out7_apply x0 x1 x2 x3 x4 (y 0) (y 1))

/-- WHAT POINT `t` WRITES BACK to the distances' array is block `t` of the clamped distances of the arrays. -/
theorem flushed5_eq (c : Dev nD) (t : Fin cfg0.N) :
    (dats m 0 c).flushed 5 t = ((cfg0.win 5).blk t).view.read (Elt Ideal)
      (distArr (distClampRow (argX m c) (argW m c) (argB m c) (argC m c))) := by
  obtain ⟨-, -, -, -, -, ⟨e0, e1⟩, -⟩ := idx_facts t
  rw [Value.flushed5]
  funext y
  have hy0 : ((y 0 : Fin 2048) : Nat) < 2048 := (y 0).isLt
  have ht : t.val < 64 := t.isLt
  show out0_5 (iblk m c 0 t) (iblk m c 1 t) (iblk m c 2 t) (iblk m c 3 t) (iblk m c 4 t) y
    = distClampRow (argX m c) (argW m c) (argB m c) (argC m c) (((cfg0.win 5).blk t).view.emb y 0) (((cfg0.win 5).blk t).view.emb y 1)
  refine (out5_at (iblk m c 0 t) (iblk m c 1 t) (iblk m c 2 t) (iblk m c 3 t) (iblk m c 4 t) y).trans ?_
  have hr : ((((cfg0.win 5).blk t).view.emb y 0 : Fin 131072) : Nat) = 2048 * t.val + (y 0).val := by
    show win0_5.index t (0 : Fin 2) * 2048 + 1 * (y 0).val = _; rw [e0]; omega
  have hk : (y 1 : Fin 512) = (((cfg0.win 5).blk t).view.emb y 1 : Fin 512) := Fin.ext (by
    show (y 1).val = win0_5.index t (1 : Fin 2) * 512 + 1 * (y 1).val; rw [e1]; omega)
  rw [blkDist_eq m c t (y 0) (((cfg0.win 5).blk t).view.emb y 0) hr, hk]

/-- WHAT POINT `t` WRITES BACK to the assignments' array is block `t` of the rows' soft assignments. -/
theorem flushed6_eq (c : Dev nD) (t : Fin cfg0.N) :
    (dats m 0 c).flushed 6 t = ((cfg0.win 6).blk t).view.read (Elt Ideal)
      (assignArr (distClampRow (argX m c) (argW m c) (argB m c) (argC m c))) := by
  obtain ⟨-, -, -, -, -, -, ⟨e0, e1⟩, -⟩ := idx_facts t
  rw [Value.flushed6]
  funext y
  have hy0 : ((y 0 : Fin 2048) : Nat) < 2048 := (y 0).isLt
  have ht : t.val < 64 := t.isLt
  show out0_6 (iblk m c 0 t) (iblk m c 1 t) (iblk m c 2 t) (iblk m c 3 t) (iblk m c 4 t) y
    = assign (distClampRow (argX m c) (argW m c) (argB m c) (argC m c) (((cfg0.win 6).blk t).view.emb y 0)) (((cfg0.win 6).blk t).view.emb y 1)
  refine (out6_at (iblk m c 0 t) (iblk m c 1 t) (iblk m c 2 t) (iblk m c 3 t) (iblk m c 4 t) y).trans ?_
  have hr : ((((cfg0.win 6).blk t).view.emb y 0 : Fin 131072) : Nat) = 2048 * t.val + (y 0).val := by
    show win0_6.index t (0 : Fin 2) * 2048 + 1 * (y 0).val = _; rw [e0]; omega
  have hk : (y 1 : Fin 512) = (((cfg0.win 6).blk t).view.emb y 1 : Fin 512) := Fin.ext (by
    show (y 1).val = win0_6.index t (1 : Fin 2) * 512 + 1 * (y 1).val; rw [e1]; omega)
  rw [blkDist_eq m c t (y 0) (((cfg0.win 6).blk t).view.emb y 0) hr, hk]

/-- WHAT POINT `t` WRITES BACK to the reconstruction's array is block `t` of the rows' reconstructions. -/
theorem flushed7_eq (c : Dev nD) (t : Fin cfg0.N) :
    (dats m 0 c).flushed 7 t = ((cfg0.win 7).blk t).view.read (Elt Ideal)
      (reconArr (distClampRow (argX m c) (argW m c) (argB m c) (argC m c)) (argC m c)) := by
  obtain ⟨-, -, -, -, -, -, -, ⟨e0, e1⟩⟩ := idx_facts t
  rw [Value.flushed7]
  funext y
  have hy0 : ((y 0 : Fin 2048) : Nat) < 2048 := (y 0).isLt
  have ht : t.val < 64 := t.isLt
  show out0_7 (iblk m c 0 t) (iblk m c 1 t) (iblk m c 2 t) (iblk m c 3 t) (iblk m c 4 t) y
    = recon (assign (distClampRow (argX m c) (argW m c) (argB m c) (argC m c) (((cfg0.win 7).blk t).view.emb y 0)))
        (fun k => rowOf (argC m c) k) (((cfg0.win 7).blk t).view.emb y 1)
  refine (out7_at (iblk m c 0 t) (iblk m c 1 t) (iblk m c 2 t) (iblk m c 3 t) (iblk m c 4 t) y).trans ?_
  have hr : ((((cfg0.win 7).blk t).view.emb y 0 : Fin 131072) : Nat) = 2048 * t.val + (y 0).val := by
    show win0_7.index t (0 : Fin 2) * 2048 + 1 * (y 0).val = _; rw [e0]; omega
  have hj : (y 1 : Fin 256) = (((cfg0.win 7).blk t).view.emb y 1 : Fin 256) := Fin.ext (by
    show (y 1).val = win0_7.index t (1 : Fin 2) * 256 + 1 * (y 1).val; rw [e1]; omega)
  have h3 : (fun k => rowOf (iblk m c 3 t : Vec Ideal S512x256 .f32) k) = fun k => rowOf (argC m c) k :=
    funext fun k => funext fun j => iblk3_apply m c t k j
  rw [blkDist_eq m c t (y 0) (((cfg0.win 7).blk t).view.emb y 0) hr, hj, h3]

/-- An index of the distances' array is in point `t`'s block iff each coordinate is in the block's range. -/
theorem mem_blk5 (t : Fin cfg0.N) (i : S131072x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v6_0).slice (win0_5.rect t)).set ↔ _
  rw [View.set_slice_whole, Rect.mem_set_unit]
  exact Iff.rfl

theorem mem_blk6 (t : Fin cfg0.N) (i : S131072x512.Idx) :
    i ∈ ((cfg0.win 6).blk t).view.set ↔ ∀ a : Fin 2, win0_6.index t a * S2048x512.size a ≤ (i a).val ∧ (i a).val < win0_6.index t a * S2048x512.size a + S2048x512.size a := by
  show i ∈ ((View.whole main_v6_1).slice (win0_6.rect t)).set ↔ _
  rw [View.set_slice_whole, Rect.mem_set_unit]
  exact Iff.rfl

theorem mem_blk7 (t : Fin cfg0.N) (i : S131072x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v6_2).slice (win0_7.rect t)).set ↔ _
  rw [View.set_slice_whole, Rect.mem_set_unit]
  exact Iff.rfl

/-- Row `r` of each output lies in the block of point `r / 2048`: the 64 blocks of 2048 rows cover the array. -/
theorem cover5 (i : S131072x512.Idx) : ∃ t : Fin cfg0.N, (cfg0.win 5).flush t = true ∧ i ∈ ((cfg0.win 5).blk t).view.set := by
  have hi0 : (i 0).val < 131072 := (i 0).isLt
  have hi1 : (i 1).val < 512 := (i 1).isLt
  have hN : cfg0.N = 64 := N_0
  have hlt : (i 0).val / 2048 < cfg0.N := by rw [hN]; omega
  obtain ⟨-, -, -, -, -, ⟨e0, e1⟩, -⟩ := idx_facts ⟨(i 0).val / 2048, hlt⟩
  refine ⟨⟨(i 0).val / 2048, hlt⟩, flush0_5 _, ?_⟩
  rw [mem_blk5]
  intro a
  match a with
  | ⟨0, _⟩ =>
    show win0_5.index ⟨(i 0).val / 2048, hlt⟩ (0 : Fin 2) * 2048 ≤ (i 0).val ∧ (i 0).val < win0_5.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_5.index ⟨(i 0).val / 2048, hlt⟩ (1 : Fin 2) * 512 ≤ (i 1).val ∧ (i 1).val < win0_5.index ⟨(i 0).val / 2048, hlt⟩ (1 : Fin 2) * 512 + 512
    rw [e1]; omega

theorem cover6 (i : S131072x512.Idx) : ∃ t : Fin cfg0.N, (cfg0.win 6).flush t = true ∧ i ∈ ((cfg0.win 6).blk t).view.set := by
  have hi0 : (i 0).val < 131072 := (i 0).isLt
  have hi1 : (i 1).val < 512 := (i 1).isLt
  have hN : cfg0.N = 64 := N_0
  have hlt : (i 0).val / 2048 < cfg0.N := by rw [hN]; omega
  obtain ⟨-, -, -, -, -, -, ⟨e0, e1⟩, -⟩ := idx_facts ⟨(i 0).val / 2048, hlt⟩
  refine ⟨⟨(i 0).val / 2048, hlt⟩, flush0_6 _, ?_⟩
  rw [mem_blk6]
  intro a
  match a with
  | ⟨0, _⟩ =>
    show win0_6.index ⟨(i 0).val / 2048, hlt⟩ (0 : Fin 2) * 2048 ≤ (i 0).val ∧ (i 0).val < win0_6.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_6.index ⟨(i 0).val / 2048, hlt⟩ (1 : Fin 2) * 512 ≤ (i 1).val ∧ (i 1).val < win0_6.index ⟨(i 0).val / 2048, hlt⟩ (1 : Fin 2) * 512 + 512
    rw [e1]; omega

theorem cover7 (i : S131072x256.Idx) : ∃ t : Fin cfg0.N, (cfg0.win 7).flush t = true ∧ i ∈ ((cfg0.win 7).blk t).view.set := by
  have hi0 : (i 0).val < 131072 := (i 0).isLt
  have hi1 : (i 1).val < 256 := (i 1).isLt
  have hN : cfg0.N = 64 := N_0
  have hlt : (i 0).val / 2048 < cfg0.N := by rw [hN]; omega
  obtain ⟨-, -, -, -, -, -, -, ⟨e0, e1⟩⟩ := idx_facts ⟨(i 0).val / 2048, hlt⟩
  refine ⟨⟨(i 0).val / 2048, hlt⟩, flush0_7 _, ?_⟩
  rw [mem_blk7]
  intro a
  match a with
  | ⟨0, _⟩ =>
    show win0_7.index ⟨(i 0).val / 2048, hlt⟩ (0 : Fin 2) * 2048 ≤ (i 0).val ∧ (i 0).val < win0_7.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_7.index ⟨(i 0).val / 2048, hlt⟩ (1 : Fin 2) * 256 ≤ (i 1).val ∧ (i 1).val < win0_7.index ⟨(i 0).val / 2048, hlt⟩ (1 : Fin 2) * 256 + 256
    rw [e1]; omega

/-- THE ARRAYS after the run: the clamped distances, their soft assignments, and the reconstructions. -/
theorem final5 (c : Dev nD) : (dats m 0 c).arrAt 5 cfg0.N
    = distArr (distClampRow (argX m c) (argW m c) (argB m c) (argC m c)) :=
  (dats m 0 c).arrAt_eq_of_cover 5 _ (fun t _ => flushed5_eq m c t) cover5

theorem final6 (c : Dev nD) : (dats m 0 c).arrAt 6 cfg0.N
    = assignArr (distClampRow (argX m c) (argW m c) (argB m c) (argC m c)) :=
  (dats m 0 c).arrAt_eq_of_cover 6 _ (fun t _ => flushed6_eq m c t) cover6

theorem final7 (c : Dev nD) : (dats m 0 c).arrAt 7 cfg0.N
    = reconArr (distClampRow (argX m c) (argW m c) (argB m c) (argC m c)) (argC m c) :=
  (dats m 0 c).arrAt_eq_of_cover 7 _ (fun t _ => flushed7_eq m c t) cover7

/-- The kernel's run, read: each result array at its function of the argument arrays, the arguments unchanged. -/
theorem run : θ_run defs (onTc (τ := τ) (main (F := Ideal))) ⟨m, fun _ => 0, ρ⟩ fun r => ∀ c : Dev nD,
      r.2.mem ((c : Thread nD τ).loc main_v6_0) = distArr (distClampRow (argX m c) (argW m c) (argB m c) (argC m c))
      ∧ r.2.mem ((c : Thread nD τ).loc main_v6_1) = assignArr (distClampRow (argX m c) (argW m c) (argB m c) (argC m c))
      ∧ r.2.mem ((c : Thread nD τ).loc main_v6_2) = reconArr (distClampRow (argX m c) (argW m c) (argB m c) (argC m c)) (argC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final5 m c), (h c).2.1.trans (final6 m c),
      (h c).2.2.1.trans (final7 m c), (h c).2.2.2⟩)
    (Value.run_blocks m ρ)

end Cert.SoftAssign.Blocks

end
-- ==== Proof.lean ====
/-
  The certificate's proof. Both programs normalise each row of the input (centre it, divide by its standard
  deviation plus ε, scale and shift it feature by feature), take its distances to 512 centres by the expanded
  square ‖a‖² + ‖c‖² - 2·⟨a, c⟩, turn each row of distances (over its mean, times -32) into a soft assignment
  by a softmax, and reconstruct the row as the assignment-weighted sum of the centres. Read on the extended
  reals they differ in one place: the kernel clamps the expanded square at zero before the square root. On real
  inputs — which the precondition gives — the normalised row is real (the divisor is a real square root plus a
  positive ε), so the expanded square IS the sum of the squares of the real differences: it is not negative, and the
  clamp is the identity. Everything downstream is one function of the distances on both sides.
  The kernel runs on 64 blocks of 2048 rows; each output row depends only on its own input row, on the scale and the
  shift, and on the centres, so block `t` of each result is rows `2048 t … 2048 t + 2047` of the whole-array function,
  and the blocks cover the arrays. The frames are the generated ones; the reference's frame is its generated run.
-/
import proofs.«117127_j32066225832561_1_alg».proof.Defs
import proofs.«117127_j32066225832561_1_alg».proof.Proof.Gen.Kernel
import proofs.«117127_j32066225832561_1_alg».proof.Proof.Gen.Kernel.Skeleton
import proofs.«117127_j32066225832561_1_alg».proof.Proof.Gen.Kernel.Launch
import proofs.«117127_j32066225832561_1_alg».proof.Proof.Gen.Kernel.Points
import proofs.«117127_j32066225832561_1_alg».proof.Proof.Gen.Kernel.Frame
import proofs.«117127_j32066225832561_1_alg».proof.Proof.Gen.KernelIdeal
import proofs.«117127_j32066225832561_1_alg».proof.Proof.Gen.KernelIdeal.Skeleton
import proofs.«117127_j32066225832561_1_alg».proof.Proof.Gen.KernelIdeal.Launch
import proofs.«117127_j32066225832561_1_alg».proof.Proof.Gen.KernelIdeal.Points
import proofs.«117127_j32066225832561_1_alg».proof.Proof.Gen.KernelIdeal.Frame
import proofs.«117127_j32066225832561_1_alg».proof.Proof.Gen.ReferenceIdeal
import proofs.«117127_j32066225832561_1_alg».proof.Proof.Gen.Pre_finite_inputs
import proofs.«117127_j32066225832561_1_alg».proof.Proof.Gen.KernelIdeal.Value
import proofs.«117127_j32066225832561_1_alg».proof.Proof.Gen.ReferenceIdeal.Run
import proofs.«117127_j32066225832561_1_alg».proof.Proof.Gen.ReferenceIdeal.Read
import proofs.«117127_j32066225832561_1_alg».proof.Proof.Law
import proofs.«117127_j32066225832561_1_alg».proof.Proof.Finite
import proofs.«117127_j32066225832561_1_alg».proof.Proof.RefRows
import proofs.«117127_j32066225832561_1_alg».proof.Proof.KernelBlocks
import Idealize.ShloMosaic.Adequacy
import Idealize.ShloMosaic.Init

noncomputable section

namespace Cert.Proof

open Idealize.ShloMosaic Idealize.ShloMosaic.TcCoe Idealize.SL.Sem Cert.SoftAssign

/-- The word-level kernel's frame is the generated one. -/
theorem frame_kernel : Cert.frame_Kernel := fun m ρ _ => Cert.Kernel.Gen.frame m ρ

/-- The idealized kernel's frame is the generated one. -/
theorem frame_kernelIdeal : Cert.frame_KernelIdeal := fun m ρ _ => Cert.KernelIdeal.Gen.frame m ρ

/-- The reference's frame is its generated run with the results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- From memories agreeing on real argument arrays both programs end with the distances, their soft assignments and
    the reconstructions: the kernel's clamped distances are the distances there, and the reference's three results are
    the same three functions of the arguments. -/
theorem algebraic : Cert.algebraic_KernelIdeal_ReferenceIdeal := by
  intro m ρ m' ρ' hpre hagree
  have hreal : ∀ c : Dev Cert.KernelIdeal.nD,
      distClampRow (Blocks.argX m c) (Blocks.argW m c) (Blocks.argB m c) (Blocks.argC m c)
        = distRow (Blocks.argX m c) (Blocks.argW m c) (Blocks.argB m c) (Blocks.argC m c) := fun c => by
    obtain ⟨hX, hW, hB, hC⟩ := isReal_of_pre _ _ _ _ (hpre c)
    exact distClampRow_eq_distRow _ _ _ _ hX hW hB hC
  refine ⟨fun c => distArr (distRow (Blocks.argX m c) (Blocks.argW m c) (Blocks.argB m c) (Blocks.argC m c)),
    fun c => assignArr (distRow (Blocks.argX m c) (Blocks.argW m c) (Blocks.argB m c) (Blocks.argC m c)),
    fun c => reconArr (distRow (Blocks.argX m c) (Blocks.argW m c) (Blocks.argB m c) (Blocks.argC m c)) (Blocks.argC m c),
    ?_, ?_⟩
  · refine (θ_run Cert.KernelIdeal.defs _ _).mono (fun r h c => ?_) (Blocks.run m ρ)
    have hc := h c
    rw [hreal c] at hc
    exact hc
  · refine (θ_run Cert.ReferenceIdeal.defs _ _).mono (fun r h c => ?_)
      (Cert.ReferenceIdeal.Value.run (F := Ideal) m' ρ')
    obtain ⟨h0, h1, h2, hk⟩ := h c
    refine ⟨h0.trans ?_, h1.trans ?_, h2.trans ?_, hk⟩
    · rw [Cert.ReferenceIdeal.Read.val_main_v38_eq, Ref.ref_dist, (hagree c).1, (hagree c).2.1, (hagree c).2.2.1,
        (hagree c).2.2.2]
    · rw [Cert.ReferenceIdeal.Read.val_main_v57_eq, Ref.ref_assign, (hagree c).1, (hagree c).2.1, (hagree c).2.2.1,
        (hagree c).2.2.2]
    · rw [Cert.ReferenceIdeal.Read.val_main_v58_eq, Ref.ref_recon, (hagree c).1, (hagree c).2.1, (hagree c).2.2.1,
        (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
